-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S1000x512 : Shape := ⟨2, ![1000, 512]⟩
abbrev S1000 : Shape := ⟨1, ![1000]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000x512 .f32) (main_arg5 : FVec F S1000x512 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000x512 .f32 := Host.absf main_arg4
  let main_cst_6 : FVec F S_ .f32 := constant S_ .f32 0x7F800000#32
  let main_v20 : FVec F S1000x512 .f32 := broadcastInDim S1000x512 ![] bcast_S_S1000x512 main_cst_6
  let main_v21 : IVec S1000x512 1 := cmpf .olt main_v19 main_v20
  let main_c_7 : IVec S_ 1 := constantI S_ 1 1#1
  let main_v22 : IVec S_ 1 := (fun x v => Host.reduce IntOp.andi x v reducesTo_S1000x512_S_d0_1 h_S_) main_v21 main_c_7
  let main_v23 : IVec S_ 1 := andi main_v18 main_v22
  let main_v24 : FVec F S1000x512 .f32 := Host.absf main_arg5
  let main_cst_8 : FVec F S_ .f32 := constant S_ .f32 0x7F800000#32
  let main_v25 : FVec F S1000x512 .f32 := broadcastInDim S1000x512 ![] bcast_S_S1000x512 main_cst_8
  let main_v26 : IVec S1000x512 1 := cmpf .olt main_v24 main_v25
  let main_c_9 : IVec S_ 1 := constantI S_ 1 1#1
  let main_v27 : IVec S_ 1 := (fun x v => Host.reduce IntOp.andi x v reducesTo_S1000x512_S_d0_1 h_S_) main_v26 main_c_9
  let main_v28 : IVec S_ 1 := andi main_v23 main_v27
  main_v28

def fn {F : FTy → Type} [FloatOps F] (main_arg0 : FVec F S131072x512 .f32) (main_arg1 : FVec F S1000x512 .f32) (main_arg2 : FVec F S1000x512 .f32) (main_arg3 : FVec F S1000 .f32) (main_arg4 : FVec F S1000x512 .f32) (main_arg5 : FVec F S1000x512 .f32) (main_arg6 : IVec S131072 32) (main_arg7 : IVec S1000 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_v13 main_v16
-- ==== Kernel.lean ====
abbrev S131072x512 : Shape := ⟨2, ![131072, 512]⟩
abbrev S1000x512 : Shape := ⟨2, ![1000, 512]⟩
abbrev S1000 : Shape := ⟨1, ![1000]⟩
abbrev S131072 : Shape := ⟨1, ![131072]⟩
abbrev S_ : Shape := ⟨0, ![]⟩
abbrev S1000x1 : Shape := ⟨2, ![1000, 1]⟩
abbrev S1024x512 : Shape := ⟨2, ![1024, 512]⟩
abbrev S1024x1024 : Shape := ⟨2, ![1024, 1024]⟩
abbrev S16x1024 : Shape := ⟨2, ![16, 1024]⟩
abbrev S1024 : Shape := ⟨1, ![1024]⟩
abbrev S8x1024 : Shape := ⟨2, ![8, 1024]⟩
abbrev S1024x1 : Shape := ⟨2, ![1024, 1]⟩
abbrev S1x1024 : Shape := ⟨2, ![1, 1024]⟩

abbrev nBuf : Space → Nat
  | .hbm => 147
  | .vmem => 9
  | .smem => 0
  | _ => 0

abbrev hbmTy0_0 (i : Nat) : BufTy := match i % 128 with
  | 0 => ⟨S131072x512, .f32⟩
  | 1 => ⟨S1000x512, .f32⟩
  | 2 => ⟨S1000x512, .f32⟩
  | 3 => ⟨S1000, .f32⟩
  | 4 => ⟨S1000x512, .f32⟩
  | 5 => ⟨S1000x512, .f32⟩
  | 6 => ⟨S131072, .i32⟩
  | 7 => ⟨S1000, .i32⟩
  | 8 => ⟨S_, .i32⟩
  | 9 => ⟨S1000, .i32⟩
  | 10 => ⟨S1000, .i1⟩
  | 11 => ⟨S_, .i32⟩
  | 12 => ⟨S1000, .i32⟩
  | 13 => ⟨S1000, .i32⟩
  | 14 => ⟨S1000, .i32⟩
  | 15 => ⟨S1000x1, .i32⟩
  | 16 => ⟨S1000, .f32⟩
  | 17 => ⟨S1000, .f32⟩
  | 18 => ⟨S1000, .f32⟩
  | 19 => ⟨S_, .f32⟩
  | 20 => ⟨S1000, .f32⟩
  | 21 => ⟨S1000, .f32⟩
  | 22 => ⟨S_, .f32⟩
  | 23 => ⟨S1000, .f32⟩
  | 24 => ⟨S1000, .f32⟩
  | 25 => ⟨S_, .i32⟩
  | 26 => ⟨S1000, .i32⟩
  | 27 => ⟨S1000, .i1⟩
  | 28 => ⟨S_, .i32⟩
  | 29 => ⟨S1000, .i32⟩
  | 30 => ⟨S1000, .i32⟩
  | 31 => ⟨S1000, .i32⟩
  | 32 => ⟨S1000x1, .i32⟩
  | 33 => ⟨S1000x512, .f32⟩
  | 34 => ⟨S_, .f32⟩
  | 35 => ⟨S1000, .f32⟩
  | 36 => ⟨S1000, .f32⟩
  | 37 => ⟨S1000x1, .f32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S1000x1, .i32⟩
  | 46 => ⟨S1000x512, .f32⟩
  | 47 => ⟨S1000x512, .f32⟩
  | 48 => ⟨S1000x512, .f32⟩
  | 49 => ⟨S1000x512, .f32⟩
  | 50 => ⟨S_, .i32⟩
  | 51 => ⟨S1000, .i32⟩
  | 52 => ⟨S1000, .i1⟩
  | 53 => ⟨S_, .i32⟩
  | 54 => ⟨S1000, .i32⟩
  | 55 => ⟨S1000, .i32⟩
  | 56 => ⟨S1000, .i32⟩
  | 57 => ⟨S1000x1, .i32⟩
  | 58 => ⟨S1000x512, .f32⟩
  | 59 => ⟨S_, .f32⟩
  | 60 => ⟨S1000x512, .f32⟩
  | 61 => ⟨S1000x512, .f32⟩
  | 62 => ⟨S1000x512, .f32⟩
  | 63 => ⟨S1000x512, .f32⟩
  | 64 => ⟨S1000x512, .i1⟩
  | 65 => ⟨S1000x512, .f32⟩
  | 66 => ⟨S1000x512, .f32⟩
  | 67 => ⟨S1000x512, .f32⟩
  | 68 => ⟨S1000x512, .f32⟩
  | 69 => ⟨S1000x512, .f32⟩
  | 70 => ⟨S1000x512, .f32⟩
  | 71 => ⟨S1000x512, .f32⟩
  | 72 => ⟨S1000x512, .f32⟩
  | 73 => ⟨S_, .f32⟩
  | 74 => ⟨S1000x512, .f32⟩
  | 75 => ⟨S1000x512, .f32⟩
  | 76 => ⟨S_, .f32⟩
  | 77 => ⟨S1000x512, .f32⟩
  | 78 => ⟨S1000x512, .f32⟩
  | 79 => ⟨S1000x512, .f32⟩
  | 80 => ⟨S_, .f32⟩
  | 81 => ⟨S_, .f32⟩
  | 82 => ⟨S_, .f32⟩
  | 83 => ⟨S1000x512, .f32⟩
  | 84 => ⟨S1000x512, .f32⟩
  | 85 => ⟨S_, .f32⟩
  | 86 => ⟨S1000x512, .f32⟩
  | 87 => ⟨S1000x512, .f32⟩
  | 88 => ⟨S_, .f32⟩
  | 89 => ⟨S1000, .f32⟩
  | 90 => ⟨S_, .f32⟩
  | 91 => ⟨S1000x512, .f32⟩
  | 92 => ⟨S1000x512, .f32⟩
  | 93 => ⟨S_, .i32⟩
  | 94 => ⟨S_, .f32⟩
  | 95 => ⟨S1024x512, .f32⟩
  | 96 => ⟨S_, .i32⟩
  | 97 => ⟨S_, .f32⟩
  | 98 => ⟨S1024x512, .f32⟩
  | 99 => ⟨S1024x1024, .f32⟩
  | 100 => ⟨S1024x1024, .bf16⟩
  | 101 => ⟨S16x1024, .f32⟩
  | 102 => ⟨S16x1024, .f32⟩
  | 103 => ⟨S1x1024, .f32⟩
  | 104 => ⟨S1024, .f32⟩
  | 105 => ⟨S1x1024, .f32⟩
  | 106 => ⟨S1024, .f32⟩
  | 107 => ⟨S1024, .f32⟩
  | 108 => ⟨S1000, .f32⟩
  | 109 => ⟨S1x1024, .f32⟩
  | 110 => ⟨S1024, .f32⟩
  | 111 => ⟨S1x1024, .f32⟩
  | 112 => ⟨S1024, .f32⟩
  | 113 => ⟨S1024, .f32⟩
  | 114 => ⟨S1000, .f32⟩
  | 115 => ⟨S_, .f32⟩
  | 116 => ⟨S1000, .f32⟩
  | 117 => ⟨S1000, .f32⟩
  | 118 => ⟨S1000, .f32⟩
  | 119 => ⟨S1000, .f32⟩
  | 120 => ⟨S_, .f32⟩
  | 121 => ⟨S1000, .f32⟩
  | 122 => ⟨S1000, .f32⟩
  | 123 => ⟨S_, .f32⟩
  | 124 => ⟨S_, .f32⟩
  | 125 => ⟨S_, .f32⟩
  | 126 => ⟨S1000, .f32⟩
  | 127 => ⟨S1000, .f32⟩
  | _ => ⟨S131072x512, .f32⟩

abbrev hbmTy0_1 (i : Nat) : BufTy := match i % 128 with
  | 0 => ⟨S_, .f32⟩
  | 1 => ⟨S1000, .f32⟩
  | 2 => ⟨S1000, .f32⟩
  | 3 => ⟨S_, .f32⟩
  | 4 => ⟨S1000, .f32⟩
  | 5 => ⟨S1000, .i1⟩
  | 6 => ⟨S1000, .i32⟩
  | 7 => ⟨S_, .i32⟩
  | 8 => ⟨S_, .i32⟩
  | 9 => ⟨S_, .f32⟩
  | 10 => ⟨S_, .f32⟩
  | 11 => ⟨S_, .f32⟩
  | 12 => ⟨S_, .f32⟩
  | 13 => ⟨S_, .f32⟩
  | 14 => ⟨S1000, .f32⟩
  | 15 => ⟨S1000, .f32⟩
  | 16 => ⟨S_, .f32⟩
  | 17 => ⟨S_, .f32⟩
  | 18 => ⟨S_, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024, .i32⟩
  | .local _ .vmem, ⟨3, _⟩ => ⟨S1024, .i32⟩
  | .local _ .vmem, ⟨4, _⟩ => ⟨S1024x1024, .bf16⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v46 : Ref sig .tc := ⟨.hbm, 87, rfl⟩
abbrev main_cst_13 : Ref sig .tc := ⟨.hbm, 88, rfl⟩
abbrev main_v47 : Ref sig .tc := ⟨.hbm, 89, rfl⟩
abbrev main_cst_14 : Ref sig .tc := ⟨.hbm, 90, rfl⟩
abbrev main_v48 : Ref sig .tc := ⟨.hbm, 91, rfl⟩
abbrev main_v49 : Ref sig .tc := ⟨.hbm, 92, rfl⟩
abbrev main_c_15 : Ref sig .tc := ⟨.hbm, 93, rfl⟩
abbrev main_call2_v0 : Ref sig .tc := ⟨.hbm, 94, rfl⟩
abbrev main_v50 : Ref sig .tc := ⟨.hbm, 95, rfl⟩
abbrev main_c_16 : Ref sig .tc := ⟨.hbm, 96, rfl⟩
abbrev main_call3_v0 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54_0 : Ref sig .tc := ⟨.hbm, 101, rfl⟩
abbrev main_v54_1 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_17 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_18 : Ref sig .tc := ⟨.hbm, 120, rfl⟩
abbrev main_v71 : Ref sig .tc := ⟨.hbm, 121, rfl⟩
abbrev main_v72 : Ref sig .tc := ⟨.hbm, 122, rfl⟩
abbrev main_cst_19 : Ref sig .tc := ⟨.hbm, 123, rfl⟩
abbrev main_cst_20 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_v73 : Ref sig .tc := ⟨.hbm, 130, rfl⟩
abbrev main_cst_21 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_22 : Ref sig .tc := ⟨.hbm, 135, rfl⟩
abbrev main_v77 : Ref sig .tc := ⟨.hbm, 136, rfl⟩
abbrev main_v78 : Ref sig .tc := ⟨.hbm, 137, rfl⟩
abbrev main_cst_23 : Ref sig .tc := ⟨.hbm, 138, rfl⟩
abbrev main_v79 : Ref sig .tc := ⟨.hbm, 139, rfl⟩
abbrev main_cst_24 : Ref sig .tc := ⟨.hbm, 140, rfl⟩
abbrev main_call5_v0 : Ref sig .tc := ⟨.hbm, 141, rfl⟩
abbrev main_call5_v1 : Ref sig .tc := ⟨.hbm, 142, rfl⟩
abbrev main_v80 : Ref sig .tc := ⟨.hbm, 143, rfl⟩
abbrev main_cst_25 : Ref sig .tc := ⟨.hbm, 144, rfl⟩
abbrev main_v81 : Ref sig .tc := ⟨.hbm, 145, rfl⟩
abbrev main_v82 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x512 : S_.BroadcastsInDim S1000x512 (![] : Fin 0 → Fin S1000x512.rank)
  reducesTo_S1000x512_S1000_d1 : S1000x512.ReducesTo [1] S1000
  h_S_ : 0 < S_.numel
  pads_S1000x512_S1024x512_0240_000 : S1000x512.Pads (![0, 0] : Fin 2 → Nat) ![24, 0] ![0, 0] S1024x512
  concatenates_S1024x512_S1024x512_S1024x1024_d1 : Shape.Concatenates [S1024x512, S1024x512] S1024x1024 1
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1024x512 : S1024x1024.Slices ![0, 0] S1024x512
  slices_S1024x1024_o0_512_S1024x512 : S1024x1024.Slices ![0, 512] S1024x512
  reduces_S1024x512_S1024 : S1024x512.Reduces [1] S1024
  reduces_S1024x1024_S1024 : S1024x1024.Reduces [0] S1024
  shapeCasts_S1024_S1x1024 : S1024.ShapeCasts S1x1024
  shapeCasts_S8x1024_S8x1024 : S8x1024.ShapeCasts S8x1024
  shapeCasts_S1x1024_S1x1024 : S1x1024.ShapeCasts S1x1024
  broadcasts_S1x1024_S8x1024 : S1x1024.Broadcasts S8x1024
  slices_S16x1024_S1x1024_0_0 : S16x1024.Slices ![0, 0] S1x1024
  shapeCasts_S1x1024_S1024 : S1x1024.ShapeCasts S1024
  slices_S16x1024_S1x1024_8_0 : S16x1024.Slices ![8, 0] S1x1024
  slices_S1024_S1000_0 : S1024.Slices ![0] S1000
  reducesTo_S1000_S_d0 : S1000.ReducesTo [0] S_
  gather_S1000_S1000x1_S1000_n_0_n_n_0_1_1_wf : GatherDims.WF S1000 S1000x1 S1000 [] [0] [] [0] [] 1 ![1]
  gather_S1000x512_S1000x1_S1000x512_1_0_n_n_0_1_1512_wf : GatherDims.WF S1000x512 S1000x1 S1000x512 [1] [0] [] [0] [] 1 ![1, 512]
  scatter_S1000x512_S1000x1_S1000x512_1_0_0_1_wf : ScatterDims.WF S1000x512 S1000x1 S1000x512 [1] [0] [0] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S131072.size a
  hwx0_1 : ∀ i : grid0.Coords, EltTy.bits .i32 = 32 ∨ (Rect.block (s := S131072) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)

variable [Facts₀]

def gather_S1000_S1000x1_S1000_n_0_n_n_0_1_1 : GatherDims S1000 S1000x1 S1000 where
  offsetDims := []
  collapsedSliceDims := [0]
  operandBatchingDims := []
  startIndicesBatchingDims := []
  startIndexMap := [0]
  indexVectorDim := 1
  sliceSizes := ![1]
  wf := gather_S1000_S1000x1_S1000_n_0_n_n_0_1_1_wf
def gather_S1000x512_S1000x1_S1000x512_1_0_n_n_0_1_1512 : GatherDims S1000x512 S1000x1 S1000x512 where
  offsetDims := [1]
  collapsedSliceDims := [0]
  operandBatchingDims := []
  startIndicesBatchingDims := []
  startIndexMap := [0]
  indexVectorDim := 1
  sliceSizes := ![1, 512]
  wf := gather_S1000x512_S1000x1_S1000x512_1_0_n_n_0_1_1512_wf
def scatter_S1000x512_S1000x1_S1000x512_1_0_0_1 : ScatterDims S1000x512 S1000x1 S1000x512 where
  updateWindowDims := [1]
  insertedWindowDims := [0]
  scatterDimsToOperandDims := [0]
  indexVectorDim := 1
  wf := scatter_S1000x512_S1000x1_S1000x512_1_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54_0) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54_1) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S1000x512 : Shape := ⟨2, ![1000, 512]⟩
abbrev S1000 : Shape := ⟨1, ![1000]⟩
abbrev S131072 : Shape := ⟨1, ![131072]⟩
abbrev S_ : Shape := ⟨0, ![]⟩
abbrev S1000x1 : Shape := ⟨2, ![1000, 1]⟩
abbrev S131072x1 : Shape := ⟨2, ![131072, 1]⟩

abbrev nBuf : Space → Nat
  | .hbm => 163
  | .vmem => 0
  | .smem => 0
  | _ => 0

abbrev hbmTy0_0 (i : Nat) : BufTy := match i % 128 with
  | 0 => ⟨S131072x512, .f32⟩
  | 1 => ⟨S1000x512, .f32⟩
  | 2 => ⟨S1000x512, .f32⟩
  | 3 => ⟨S1000, .f32⟩
  | 4 => ⟨S1000x512, .f32⟩
  | 5 => ⟨S1000x512, .f32⟩
  | 6 => ⟨S131072, .i32⟩
  | 7 => ⟨S1000, .i32⟩
  | 8 => ⟨S_, .i32⟩
  | 9 => ⟨S1000, .i32⟩
  | 10 => ⟨S1000, .i1⟩
  | 11 => ⟨S_, .i32⟩
  | 12 => ⟨S1000, .i32⟩
  | 13 => ⟨S1000, .i32⟩
  | 14 => ⟨S1000, .i32⟩
  | 15 => ⟨S1000x1, .i32⟩
  | 16 => ⟨S1000, .f32⟩
  | 17 => ⟨S1000, .f32⟩
  | 18 => ⟨S1000, .f32⟩
  | 19 => ⟨S_, .f32⟩
  | 20 => ⟨S1000, .f32⟩
  | 21 => ⟨S1000, .f32⟩
  | 22 => ⟨S_, .f32⟩
  | 23 => ⟨S1000, .f32⟩
  | 24 => ⟨S1000, .f32⟩
  | 25 => ⟨S_, .i32⟩
  | 26 => ⟨S1000, .i32⟩
  | 27 => ⟨S1000, .i1⟩
  | 28 => ⟨S_, .i32⟩
  | 29 => ⟨S1000, .i32⟩
  | 30 => ⟨S1000, .i32⟩
  | 31 => ⟨S1000, .i32⟩
  | 32 => ⟨S1000x1, .i32⟩
  | 33 => ⟨S1000x512, .f32⟩
  | 34 => ⟨S_, .f32⟩
  | 35 => ⟨S1000, .f32⟩
  | 36 => ⟨S1000, .f32⟩
  | 37 => ⟨S1000x1, .f32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S1000x1, .i32⟩
  | 46 => ⟨S1000x512, .f32⟩
  | 47 => ⟨S1000x512, .f32⟩
  | 48 => ⟨S1000x512, .f32⟩
  | 49 => ⟨S1000x512, .f32⟩
  | 50 => ⟨S_, .i32⟩
  | 51 => ⟨S1000, .i32⟩
  | 52 => ⟨S1000, .i1⟩
  | 53 => ⟨S_, .i32⟩
  | 54 => ⟨S1000, .i32⟩
  | 55 => ⟨S1000, .i32⟩
  | 56 => ⟨S1000, .i32⟩
  | 57 => ⟨S1000x1, .i32⟩
  | 58 => ⟨S1000x512, .f32⟩
  | 59 => ⟨S_, .f32⟩
  | 60 => ⟨S1000x512, .f32⟩
  | 61 => ⟨S1000x512, .f32⟩
  | 62 => ⟨S1000x512, .f32⟩
  | 63 => ⟨S1000x512, .f32⟩
  | 64 => ⟨S1000x512, .i1⟩
  | 65 => ⟨S1000x512, .f32⟩
  | 66 => ⟨S1000x512, .f32⟩
  | 67 => ⟨S1000x512, .f32⟩
  | 68 => ⟨S1000x512, .f32⟩
  | 69 => ⟨S1000x512, .f32⟩
  | 70 => ⟨S1000x512, .f32⟩
  | 71 => ⟨S1000x512, .f32⟩
  | 72 => ⟨S1000x512, .f32⟩
  | 73 => ⟨S_, .f32⟩
  | 74 => ⟨S1000x512, .f32⟩
  | 75 => ⟨S1000x512, .f32⟩
  | 76 => ⟨S_, .f32⟩
  | 77 => ⟨S1000x512, .f32⟩
  | 78 => ⟨S1000x512, .f32⟩
  | 79 => ⟨S1000x512, .f32⟩
  | 80 => ⟨S_, .f32⟩
  | 81 => ⟨S_, .f32⟩
  | 82 => ⟨S_, .f32⟩
  | 83 => ⟨S1000x512, .f32⟩
  | 84 => ⟨S1000x512, .f32⟩
  | 85 => ⟨S_, .f32⟩
  | 86 => ⟨S1000x512, .f32⟩
  | 87 => ⟨S1000x512, .f32⟩
  | 88 => ⟨S_, .f32⟩
  | 89 => ⟨S1000, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S131072x512, .f32⟩
  | 99 => ⟨S131072x512, .f32⟩
  | 100 => ⟨S131072x512, .f32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S131072x1, .i32⟩
  | 109 => ⟨S131072x512, .f32⟩
  | 110 => ⟨S131072x512, .f32⟩
  | 111 => ⟨S_, .f32⟩
  | 112 => ⟨S_, .f32⟩
  | 113 => ⟨S_, .f32⟩
  | 114 => ⟨S131072x512, .f32⟩
  | 115 => ⟨S131072x512, .f32⟩
  | 116 => ⟨S_, .f32⟩
  | 117 => ⟨S131072x512, .f32⟩
  | 118 => ⟨S131072x512, .f32⟩
  | 119 => ⟨S_, .f32⟩
  | 120 => ⟨S131072, .f32⟩
  | 121 => ⟨S_, .f32⟩
  | 122 => ⟨S1000, .f32⟩
  | 123 => ⟨S131072x1, .i32⟩
  | 124 => ⟨S1000, .f32⟩
  | 125 => ⟨S_, .f32⟩
  | 126 => ⟨S131072, .f32⟩
  | 127 => ⟨S_, .f32⟩
  | _ => ⟨S131072x512, .f32⟩

abbrev hbmTy0_1 (i : Nat) : BufTy := match i % 128 with
  | 0 => ⟨S1000, .f32⟩
  | 1 => ⟨S131072x1, .i32⟩
  | 2 => ⟨S1000, .f32⟩
  | 3 => ⟨S_, .f32⟩
  | 4 => ⟨S1000, .f32⟩
  | 5 => ⟨S1000, .f32⟩
  | 6 => ⟨S1000, .f32⟩
  | 7 => ⟨S1000, .f32⟩
  | 8 => ⟨S_, .f32⟩
  | 9 => ⟨S1000, .f32⟩
  | 10 => ⟨S1000, .f32⟩
  | 11 => ⟨S_, .f32⟩
  | 12 => ⟨S_, .f32⟩
  | 13 => ⟨S_, .f32⟩
  | 14 => ⟨S1000, .f32⟩
  | 15 => ⟨S1000, .f32⟩
  | 16 => ⟨S_, .f32⟩
  | 17 => ⟨S1000, .f32⟩
  | 18 => ⟨S1000, .f32⟩
  | 19 => ⟨S_, .f32⟩
  | 20 => ⟨S1000, .f32⟩
  | 21 => ⟨S1000, .i1⟩
  | 22 => ⟨S1000, .i32⟩
  | 23 => ⟨S_, .i32⟩
  | 24 => ⟨S_, .i32⟩
  | 25 => ⟨S_, .f32⟩
  | 26 => ⟨S_, .f32⟩
  | 27 => ⟨S_, .f32⟩
  | 28 => ⟨S_, .f32⟩
  | 29 => ⟨S_, .f32⟩
  | 30 => ⟨S1000, .f32⟩
  | 31 => ⟨S1000, .f32⟩
  | 32 => ⟨S_, .f32⟩
  | 33 => ⟨S_, .f32⟩
  | 34 => ⟨S_, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v46 : Ref sig .tc := ⟨.hbm, 87, rfl⟩
abbrev main_cst_13 : Ref sig .tc := ⟨.hbm, 88, rfl⟩
abbrev main_v47 : Ref sig .tc := ⟨.hbm, 89, rfl⟩
abbrev main_c_14 : Ref sig .tc := ⟨.hbm, 90, rfl⟩
abbrev main_v48 : Ref sig .tc := ⟨.hbm, 91, rfl⟩
abbrev main_v49 : Ref sig .tc := ⟨.hbm, 92, rfl⟩
abbrev main_c_15 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_16 : Ref sig .tc := ⟨.hbm, 101, rfl⟩
abbrev main_v57 : Ref sig .tc := ⟨.hbm, 102, rfl⟩
abbrev main_v58 : Ref sig .tc := ⟨.hbm, 103, rfl⟩
abbrev main_c_17 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_18 : Ref sig .tc := ⟨.hbm, 111, rfl⟩
abbrev main_cst_19 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v65 : Ref sig .tc := ⟨.hbm, 118, rfl⟩
abbrev main_cst_20 : Ref sig .tc := ⟨.hbm, 119, rfl⟩
abbrev main_v66 : Ref sig .tc := ⟨.hbm, 120, rfl⟩
abbrev main_cst_21 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_22 : Ref sig .tc := ⟨.hbm, 125, rfl⟩
abbrev main_v70 : Ref sig .tc := ⟨.hbm, 126, rfl⟩
abbrev main_cst_23 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_24 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_25 : Ref sig .tc := ⟨.hbm, 136, rfl⟩
abbrev main_v78 : Ref sig .tc := ⟨.hbm, 137, rfl⟩
abbrev main_v79 : Ref sig .tc := ⟨.hbm, 138, rfl⟩
abbrev main_cst_26 : Ref sig .tc := ⟨.hbm, 139, rfl⟩
abbrev main_cst_27 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v80 : Ref sig .tc := ⟨.hbm, 146, rfl⟩
abbrev main_cst_28 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_c_29 : Ref sig .tc := ⟨.hbm, 151, rfl⟩
abbrev main_v84 : Ref sig .tc := ⟨.hbm, 152, rfl⟩
abbrev main_v85 : Ref sig .tc := ⟨.hbm, 153, rfl⟩
abbrev main_cst_30 : Ref sig .tc := ⟨.hbm, 154, rfl⟩
abbrev main_v86 : Ref sig .tc := ⟨.hbm, 155, rfl⟩
abbrev main_cst_31 : Ref sig .tc := ⟨.hbm, 156, rfl⟩
abbrev main_call4_v0 : Ref sig .tc := ⟨.hbm, 157, rfl⟩
abbrev main_call4_v1 : Ref sig .tc := ⟨.hbm, 158, rfl⟩
abbrev main_v87 : Ref sig .tc := ⟨.hbm, 159, rfl⟩
abbrev main_cst_32 : Ref sig .tc := ⟨.hbm, 160, rfl⟩
abbrev main_v88 : Ref sig .tc := ⟨.hbm, 161, rfl⟩
abbrev main_v89 : Ref sig .tc := ⟨.hbm, 162, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x512 : S_.BroadcastsInDim S1000x512 (![] : Fin 0 → Fin S1000x512.rank)
  reducesTo_S1000x512_S1000_d1 : S1000x512.ReducesTo [1] S1000
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S_S131072x512 : S_.BroadcastsInDim S131072x512 (![] : Fin 0 → Fin S131072x512.rank)
  reducesTo_S131072x512_S131072_d1 : S131072x512.ReducesTo [1] S131072
  natLt_1_32 : 1 < 32
  reducesTo_S1000_S_d0 : S1000.ReducesTo [0] S_
  gather_S1000_S1000x1_S1000_n_0_n_n_0_1_1_wf : GatherDims.WF S1000 S1000x1 S1000 [] [0] [] [0] [] 1 ![1]
  gather_S1000x512_S1000x1_S1000x512_1_0_n_n_0_1_1512_wf : GatherDims.WF S1000x512 S1000x1 S1000x512 [1] [0] [] [0] [] 1 ![1, 512]
  scatter_S1000x512_S1000x1_S1000x512_1_0_0_1_wf : ScatterDims.WF S1000x512 S1000x1 S1000x512 [1] [0] [0] 1
  gather_S1000x512_S131072x1_S131072x512_1_0_n_n_0_1_1512_wf : GatherDims.WF S1000x512 S131072x1 S131072x512 [1] [0] [] [0] [] 1 ![1, 512]
  scatter_S1000_S131072x1_S131072_n_0_0_1_wf : ScatterDims.WF S1000 S131072x1 S131072 [] [0] [0] 1

variable [Facts₀]

def gather_S1000_S1000x1_S1000_n_0_n_n_0_1_1 : GatherDims S1000 S1000x1 S1000 where
  offsetDims := []
  collapsedSliceDims := [0]
  operandBatchingDims := []
  startIndicesBatchingDims := []
  startIndexMap := [0]
  indexVectorDim := 1
  sliceSizes := ![1]
  wf := gather_S1000_S1000x1_S1000_n_0_n_n_0_1_1_wf
def gather_S1000x512_S1000x1_S1000x512_1_0_n_n_0_1_1512 : GatherDims S1000x512 S1000x1 S1000x512 where
  offsetDims := [1]
  collapsedSliceDims := [0]
  operandBatchingDims := []
  startIndicesBatchingDims := []
  startIndexMap := [0]
  indexVectorDim := 1
  sliceSizes := ![1, 512]
  wf := gather_S1000x512_S1000x1_S1000x512_1_0_n_n_0_1_1512_wf
def scatter_S1000x512_S1000x1_S1000x512_1_0_0_1 : ScatterDims S1000x512 S1000x1 S1000x512 where
  updateWindowDims := [1]
  insertedWindowDims := [0]
  scatterDimsToOperandDims := [0]
  indexVectorDim := 1
  wf := scatter_S1000x512_S1000x1_S1000x512_1_0_0_1_wf
def gather_S1000x512_S131072x1_S131072x512_1_0_n_n_0_1_1512 : GatherDims S1000x512 S131072x1 S131072x512 where
  offsetDims := [1]
  collapsedSliceDims := [0]
  operandBatchingDims := []
  startIndicesBatchingDims := []
  startIndexMap := [0]
  indexVectorDim := 1
  sliceSizes := ![1, 512]
  wf := gather_S1000x512_S131072x1_S131072x512_1_0_n_n_0_1_1512_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

class Facts : Prop extends Facts₀ where

variable [Facts]
-- ==== Proof.ClassSpec.lean ====
/-
  The vocabulary both programs' per-class reductions are stated in, over the extended reals.

  Each of the 131072 feature rows carries an integer label. A row belongs to class c when its label, read
  signed, is c. For a row of class c the clipped squared distance to that class's Gaussian is
      Σ_j clip₀¹⁰⁰ ((x_j − μ_{c,j})² / v_{c,j}),
  and the per-class statistics are the sum of these distances over the class's rows and the number of such
  rows. One program divides by the variance; the other multiplies by a tabulated reciprocal. The two
  distances are kept apart here (`rowDistDiv`, `rowDistMul`) and joined where the variance is known to be
  nonzero.
-/
import Idealize.ShloMosaic.PureOps.Ideal
import Idealize.ShloMosaic.Lib.ValueIdx

noncomputable section

open scoped BigOperators

namespace Cert.ClassSpec

open Idealize.ShloMosaic

/-- "The label l names class c", as the extended real 1 or 0 (the label is read signed). -/
def hot (l : BitVec 32) (c : ℕ) : EReal := if l.toInt = (c : ℤ) then 1 else 0

/-- The clamp to [0, 100] in the order both programs apply it: the maximum with 0 first, then the minimum with 100. -/
def clip100 (x : EReal) : EReal := min (Ideal.ofBits .f32 0x42C80000#32) (max (Ideal.ofBits .f32 0x00000000#32) x)

/-- A row's clipped squared distance with a MULTIPLIED weight row w: Σ_j clip ((x_j − μ_j)² · w_j). -/
def rowDistMul (x mu w : Fin 512 → EReal) : EReal := ∑ j : Fin 512, clip100 ((x j - mu j) * (x j - mu j) * w j)

/-- The same with a DIVISION by the variance row v: Σ_j clip ((x_j − μ_j)² / v_j). -/
def rowDistDiv (x mu v : Fin 512 → EReal) : EReal := ∑ j : Fin 512, clip100 (Ideal.div ((x j - mu j) * (x j - mu j)) (v j))

/-- Column j of the left half (the means) of a 1024-wide table row. -/
def colLo (j : Fin 512) : Fin 1024 := ⟨j.val, by have := j.isLt; omega⟩
/-- Column j of the right half (the reciprocal variances) of a 1024-wide table row. -/
def colHi (j : Fin 512) : Fin 1024 := ⟨512 + j.val, by have := j.isLt; omega⟩

/-- Class c < 1000 as a row of the table padded to 1024 rows. -/
def padRow (c : Fin 1000) : Fin 1024 := ⟨c.val, by have := c.isLt; omega⟩

/-- Row q of tile t (128 tiles of 1024 rows) as a row of the whole feature array. -/
def tileRow (t : Fin 128) (q : Fin 1024) : Fin 131072 := ⟨t.val * 1024 + q.val, by have := t.isLt; have := q.isLt; omega⟩

end Cert.ClassSpec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelPay.lean ====
/-
  The kernel body's arithmetic for one tile of 1024 rows, read at an index over the extended reals.

  A tile holds 1024 feature rows x (512 features each), their labels l, and the resident table T of 1024 rows and
  1024 columns: columns 0..511 of row c are class c's means, columns 512..1023 its reciprocal variances.
  The body forms the one-hot matrix H[q, c] = 1 if label l_q names lane c, else 0, and from it
    * the tile's per-class counts  Σ_q H[q, c];
    * the gathered table rows      g[q, ·] = Σ_c' H[q, c'] · T[c', ·]   (a matrix product into a zero accumulator);
    * each row's clipped distance  d_q = Σ_j clip ((x[q, j] − g[q, j])² · g[q, 512 + j]);
    * the tile's per-class sums    Σ_q H[q, c] · d_q,
  and adds the counts and the sums, repeated over 8 sublanes, to two running [8, 1024] blocks that start at zero.

  The label test in the body compares 32-bit words (label word = lane number as a word); the shared vocabulary
  reads the label as a signed integer. For a lane number below 1024 the two tests agree, because such a number is
  the signed reading of exactly one 32-bit word.
-/
import proofs.«414106_j34806414967387_2_alg».proof.Proof.Gen.KernelIdeal.Skeleton
import proofs.«414106_j34806414967387_2_alg».proof.Proof.ClassSpec
import proofs.«414106_j34806414967387_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.ClassSpec

/-! ## The two running blocks start at zero -/

/-- The block the per-class sums start from is zero everywhere. -/
theorem pay2_apply (y : S8x1024.Idx) : k0_pay2 (F := Ideal) y = (0 : EReal) := Ideal.ofBits_zero_f32

/-- The block the per-class counts start from is zero everywhere. -/
theorem pay3_apply (y : S8x1024.Idx) : k0_pay3 (F := Ideal) y = (0 : EReal) := Ideal.ofBits_zero_f32

/-! ## The one-hot entry: a comparison of words against a comparison of signed readings -/

/-- A number c below 1024 is the signed reading of exactly one 32-bit word, the word of c. -/
theorem word_eq_iff (l : BitVec 32) (c : ℕ) (hc : c < 1024) : l = BitVec.ofNat 32 c ↔ l.toInt = (c : ℤ) := by
  constructor
  · rintro rfl
    unfold BitVec.toInt
    rw [BitVec.toNat_ofNat]
    have hm : c % 2 ^ 32 = c := Nat.mod_eq_of_lt (by omega)
    rw [hm]
    split <;> omega
  · intro h
    have e := BitVec.ofInt_toInt (x := l)
    rw [← e, h]
    rfl

/-- The bit "word l equals the word of c", widened to 32 bits and read as a signed integer, is the extended real
    1 when the label l names c and 0 otherwise. -/
theorem hot_word (l : BitVec 32) (c : ℕ) (hc : c < 1024) :
    (FloatOps.sitofp (F := Ideal) .f32 ((IntOp.cmpi .eq l (BitVec.ofNat 32 c)).setWidth 32) : EReal) = hot l c := by
  unfold hot
  show (((((IntOp.cmpi .eq l (BitVec.ofNat 32 c)).setWidth 32).toInt : ℤ) : ℝ) : EReal) = _
  by_cases h : l = BitVec.ofNat 32 c
  · have hb : (l == BitVec.ofNat 32 c) = true := beq_iff_eq.mpr h
    have h1 : IntOp.cmpi .eq l (BitVec.ofNat 32 c) = 1#1 := by
      show BitVec.ofBool (l == BitVec.ofNat 32 c) = 1#1
      rw [hb]; rfl
    rw [h1, if_pos ((word_eq_iff l c hc).mp h)]
    simp
  · have hb : (l == BitVec.ofNat 32 c) = false := beq_eq_false_iff_ne.mpr h
    have h0 : IntOp.cmpi .eq l (BitVec.ofNat 32 c) = 0#1 := by
      show BitVec.ofBool (l == BitVec.ofNat 32 c) = 0#1
      rw [hb]; rfl
    rw [h0, if_neg (fun e => h ((word_eq_iff l c hc).mpr e))]
    simp

/-- The mask at (q, c) compares row q's label word with the word of the lane number c. -/
theorem pay4_apply (x1 : Vec Ideal S1024 .i32) (q cc : Fin 1024) :
    k0_pay4 (F := Ideal) x1 (ix2 q cc) = IntOp.cmpi .eq (x1 (ix1 q)) (BitVec.ofNat 32 cc.val) := by
  have e1 : broadcastTo S1024x1024 (shapeCast S1024x1 x1 shapeCasts_S1024_S1024x1) broadcasts_S1024x1_S1024x1024 (ix2 q cc)
      = x1 (ix1 q) :=
    (Keepdims.broadcastTo_a1_ab_apply _ broadcasts_S1024x1_S1024x1024 q cc).trans
      (Keepdims.shapeCast_a_a1_apply x1 shapeCasts_S1024_S1024x1 q 0)
  have e2 : iota .tc S1024x1024 32 [1] iota_S1024x1024_d1_w32 (ix2 q cc) = BitVec.ofNat 32 cc.val :=
    iota_single_apply .tc S1024x1024 32 1 iota_S1024x1024_d1_w32 (ix2 q cc)
  show IntOp.cmpi .eq
      (broadcastTo S1024x1024 (shapeCast S1024x1 x1 shapeCasts_S1024_S1024x1) broadcasts_S1024x1_S1024x1024 (ix2 q cc))
      (iota .tc S1024x1024 32 [1] iota_S1024x1024_d1_w32 (ix2 q cc)) = _
  rw [e1, e2]

/-- The one-hot matrix at (q, c): 1 when row q's label names class c, else 0. -/
theorem pay5_apply (x1 : Vec Ideal S1024 .i32) (q cc : Fin 1024) :
    k0_pay5 (F := Ideal) x1 (ix2 q cc) = hot (x1 (ix1 q)) cc.val := by
  show FloatOps.sitofp (F := Ideal) .f32 ((k0_pay4 (F := Ideal) x1 (ix2 q cc)).setWidth 32) = _
  rw [pay4_apply]
  exact hot_word _ _ cc.isLt

/-! ## Column sums, and a row added to every sublane -/

/-- A sum of a [1024, 1024] array over its FIRST axis, from the zero accumulator, reads at column c as the sum of
    that column. -/
theorem colSum_apply (src : FVec Ideal S1024x1024 .f32) (c : Fin 1024) :
    multiReduction .add [0] S1024 src 0x00000000#32 reduces_S1024x1024_S1024 (.inl rfl) rfl (ix1 c)
      = ∑ k : Fin 1024, src (ix2 k c) := by
  refine (Ideal.multiReduction_add_single src 0x00000000#32 reduces_S1024x1024_S1024 (.inl rfl) rfl (ix1 c)).trans ?_
  refine Finset.sum_congr rfl fun k _ => ?_
  refine congrArg src (funext fun ax => Fin.ext ?_)
  rw [Shape.Reduces.lift_val]
  match ax with
  | ⟨0, _⟩ => rfl
  | ⟨1, _⟩ => rfl

/-- The column sums of a [1024, 1024] array laid out as one row [1, 1024]. -/
def colSums (v : FVec Ideal S1024x1024 .f32) : FVec Ideal S1x1024 .f32 :=
  shapeCast S1x1024 (multiReduction .add [0] S1024 v 0x00000000#32 reduces_S1024x1024_S1024 (.inl rfl) rfl)
    shapeCasts_S1024_S1x1024

theorem colSums_apply (v : FVec Ideal S1024x1024 .f32) (u : Fin 1) (c : Fin 1024) :
    colSums v (ix2 u c) = ∑ k : Fin 1024, v (ix2 k c) :=
  (shapeCast_a_1a_apply _ shapeCasts_S1024_S1x1024 u c).trans (colSum_apply v c)

/-- The tile's per-class counts are the column sums of the one-hot matrix. -/
theorem pay6_eq (x1 : Vec Ideal S1024 .i32) : k0_pay6 (F := Ideal) x1 = colSums (k0_pay5 (F := Ideal) x1) := rfl

/-- A row r added to every sublane of a running block: at (s, c) the block's entry plus r at c. -/
theorem pay1_row (r : FVec Ideal S1x1024 .f32) (acc : FVec Ideal S8x1024 .f32) (s : Fin 8) (cc : Fin 1024) :
    k0_pay1 (F := Ideal) r acc (ix2 s cc) = acc (ix2 s cc) + r (ix2 (0 : Fin 1) cc) := by
  have ea : shapeCast S8x1024 acc shapeCasts_S8x1024_S8x1024 = acc := shapeCast_self _ _
  have eb : shapeCast S1x1024 r shapeCasts_S1x1024_S1x1024 = r := shapeCast_self _ _
  show shapeCast S8x1024 acc shapeCasts_S8x1024_S8x1024 (ix2 s cc)
      + broadcastTo S8x1024 (shapeCast S1x1024 r shapeCasts_S1x1024_S1x1024) broadcasts_S1x1024_S8x1024 (ix2 s cc) = _
  rw [ea, eb]
  exact congrArg (acc (ix2 s cc) + ·) (broadcastTo_1b_ab_apply r broadcasts_S1x1024_S8x1024 s cc)

/-- The running count block after a tile: its entry plus the number of the tile's rows labelled with the class. -/
theorem pay1_apply (x1 : Vec Ideal S1024 .i32) (acc : Vec Ideal S8x1024 .f32) (s : Fin 8) (cc : Fin 1024) :
    k0_pay1 (F := Ideal) (k0_pay6 (F := Ideal) x1) acc (ix2 s cc) = acc (ix2 s cc) + ∑ q : Fin 1024, hot (x1 (ix1 q)) cc.val := by
  refine (pay1_row (k0_pay6 (F := Ideal) x1) acc s cc).trans ?_
  refine congrArg (acc (ix2 s cc) + ·) ?_
  rw [pay6_eq]
  refine (colSums_apply _ 0 cc).trans ?_
  exact Finset.sum_congr rfl fun q _ => pay5_apply x1 q cc

/-! ## The matrix product that gathers each row's table row

The product contracts the left operand's second axis with the right operand's first. The four lemmas below read the
two operand indices at a result index i and a contraction index k, axis by axis. -/

theorem lhs_mm_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs_mm_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k

theorem rhs_mm_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k

theorem rhs_mm_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into the zero accumulator at (p, c): the sum over k of left (p, k) times right (k, c). -/
theorem mm_apply (l r : FVec Ideal S1024x1024 .bf16) (p c : Fin 1024) :
    matmul (F := Ideal) dot_S1024x1024_S1024x1024_S1024x1024_1_0_0_1_n_n none l r (constant (F := Ideal) S1024x1024 .f32 0x00000000#32) (ix2 p c)
      = ∑ k : Fin 1024, l (ix2 p k) * r (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p c) ((contrEquiv1 dot_S1024x1024_S1024x1024_S1024x1024_1_0_0_1_n_n 1024 rfl rfl).symm k) = ix2 p k :=
    funext fun a => Fin.ext (by
      match a with
      | ⟨0, _⟩ => exact lhs_mm_0 _ _
      | ⟨1, _⟩ => exact (lhs_mm_1 _ _).trans hk)
  have er : dot_S1024x1024_S1024x1024_S1024x1024_1_0_0_1_n_n.rhsIdx (ix2 p c) ((contrEquiv1 dot_S1024x1024_S1024x1024_S1024x1024_1_0_0_1_n_n 1024 rfl rfl).symm k) = ix2 k c :=
    funext fun a => Fin.ext (by
      match a with
      | ⟨0, _⟩ => exact (rhs_mm_0 _ _).trans hk
      | ⟨1, _⟩ => exact rhs_mm_1 _ _)
  rw [el, er]

/-- The rows of the table T picked by a matrix H: g = H ⬝ T, the left operand passing through a change of float
    format, which is the identity on extended reals. -/
def gathered (oh : FVec Ideal S1024x1024 .f32) (x2 : FVec Ideal S1024x1024 .bf16) : FVec Ideal S1024x1024 .f32 :=
  matmul dot_S1024x1024_S1024x1024_S1024x1024_1_0_0_1_n_n none (truncf .bf16 oh bitsLt_bf16_f32)
    (shapeCast S1024x1024 x2 shapeCasts_S1024x1024_S1024x1024) (constant S1024x1024 .f32 0x00000000#32)

theorem gathered_apply (oh : FVec Ideal S1024x1024 .f32) (x2 : FVec Ideal S1024x1024 .bf16) (q c : Fin 1024) :
    gathered oh x2 (ix2 q c) = ∑ c' : Fin 1024, oh (ix2 q c') * x2 (ix2 c' c) := by
  have e : shapeCast S1024x1024 x2 shapeCasts_S1024x1024_S1024x1024 = x2 := shapeCast_self _ _
  unfold gathered
  rw [e]
  exact mm_apply (truncf .bf16 oh bitsLt_bf16_f32) x2 q c

/-! ## A row's clipped distance -/

/-- Each row's clipped squared distance from a [1024, 1024] array g whose left half holds the row's means and whose
    right half its weights: the lane sum of clip ((x − g_left)² · g_right). -/
def rowDist (x0 : FVec Ideal S1024x512 .f32) (g : FVec Ideal S1024x1024 .f32) : FVec Ideal S1024 .f32 :=
  multiReduction .add [1] S1024
    (minimumf (broadcast S1024x512 (Scalar.ofBits .f32 0x42C80000#32))
      (maximumf (broadcast S1024x512 (Scalar.ofBits .f32 0x00000000#32))
        (mulf
          (mulf (subf x0 (extractStridedSlice S1024x512 ![0, 0] g slices_S1024x1024_o0_0_S1024x512))
            (subf x0 (extractStridedSlice S1024x512 ![0, 0] g slices_S1024x1024_o0_0_S1024x512)))
          (extractStridedSlice S1024x512 ![0, 512] g slices_S1024x1024_o0_512_S1024x512))))
    0x00000000#32 reduces_S1024x512_S1024 (.inl rfl) rfl

theorem rowDist_apply (x0 : FVec Ideal S1024x512 .f32) (g : FVec Ideal S1024x1024 .f32) (q : Fin 1024) :
    rowDist x0 g (ix1 q)
      = rowDistMul (fun j => x0 (ix2 q j)) (fun j => g (ix2 q (colLo j))) (fun j => g (ix2 q (colHi j))) := by
  unfold rowDist rowDistMul
  refine (Keepdims.laneSum_apply _ 0x00000000#32 reduces_S1024x512_S1024 (.inl rfl) rfl q).trans ?_
  refine Finset.sum_congr rfl fun j _ => ?_
  have elo : extractStridedSlice S1024x512 ![0, 0] g slices_S1024x1024_o0_0_S1024x512 (ix2 q j) = g (ix2 q (colLo j)) :=
    slice2_axis1_apply 0 g slices_S1024x1024_o0_0_S1024x512 q j (colLo j) (Nat.zero_add _).symm
  have ehi : extractStridedSlice S1024x512 ![0, 512] g slices_S1024x1024_o0_512_S1024x512 (ix2 q j) = g (ix2 q (colHi j)) :=
    slice2_axis1_apply 512 g slices_S1024x1024_o0_512_S1024x512 q j (colHi j) rfl
  show clip100
      ((x0 (ix2 q j) - extractStridedSlice S1024x512 ![0, 0] g slices_S1024x1024_o0_0_S1024x512 (ix2 q j))
        * (x0 (ix2 q j) - extractStridedSlice S1024x512 ![0, 0] g slices_S1024x1024_o0_0_S1024x512 (ix2 q j))
        * extractStridedSlice S1024x512 ![0, 512] g slices_S1024x1024_o0_512_S1024x512 (ix2 q j)) = _
  rw [elo, ehi]

/-! ## The running sum block after a tile -/

/-- The body's sum block is: the row of column sums of H[q, c] · d_q, added to every sublane of the running block,
    where d is the rows' clipped distances against the rows of the table that H gathers. -/
theorem pay7_eq (x0 : Vec Ideal S1024x512 .f32) (x1 : Vec Ideal S1024 .i32) (x2 : Vec Ideal S1024x1024 .bf16)
    (acc : Vec Ideal S8x1024 .f32) :
    k0_pay7 (F := Ideal) x0 x1 x2 acc
      = k0_pay1 (F := Ideal)
          (colSums (mulf (k0_pay5 (F := Ideal) x1)
            (broadcastTo S1024x1024
              (shapeCast S1024x1 (rowDist x0 (gathered (k0_pay5 (F := Ideal) x1) x2)) shapeCasts_S1024_S1024x1)
              broadcasts_S1024x1_S1024x1024)))
          acc := rfl

/-- The running sum block after a tile: its entry plus the sum, over the tile's rows labelled with the class, of the
    row's clipped distance to the table row its own label gathers. -/
theorem pay7_apply (x0 : Vec Ideal S1024x512 .f32) (x1 : Vec Ideal S1024 .i32) (x2 : Vec Ideal S1024x1024 .bf16)
    (acc : Vec Ideal S8x1024 .f32) (s : Fin 8) (cc : Fin 1024) :
    k0_pay7 (F := Ideal) x0 x1 x2 acc (ix2 s cc)
      = acc (ix2 s cc) + ∑ q : Fin 1024, hot (x1 (ix1 q)) cc.val *
          rowDistMul (fun j => x0 (ix2 q j))
            (fun j => ∑ c' : Fin 1024, hot (x1 (ix1 q)) c'.val * x2 (ix2 c' (colLo j)))
            (fun j => ∑ c' : Fin 1024, hot (x1 (ix1 q)) c'.val * x2 (ix2 c' (colHi j))) := by
  rw [pay7_eq]
  refine (pay1_row _ acc s cc).trans ?_
  refine congrArg (acc (ix2 s cc) + ·) ?_
  refine (colSums_apply _ 0 cc).trans ?_
  refine Finset.sum_congr rfl fun q _ => ?_
  have hg : ∀ c : Fin 1024, gathered (k0_pay5 (F := Ideal) x1) x2 (ix2 q c)
      = ∑ c' : Fin 1024, hot (x1 (ix1 q)) c'.val * x2 (ix2 c' c) := fun c =>
    (gathered_apply (k0_pay5 (F := Ideal) x1) x2 q c).trans
      (Finset.sum_congr rfl fun c' _ => congrArg (· * x2 (ix2 c' c)) (pay5_apply x1 q c'))
  have hrow := rowDist_apply x0 (gathered (k0_pay5 (F := Ideal) x1) x2) q
  simp only [hg] at hrow
  have hb : broadcastTo S1024x1024
      (shapeCast S1024x1 (rowDist x0 (gathered (k0_pay5 (F := Ideal) x1) x2)) shapeCasts_S1024_S1024x1)
      broadcasts_S1024x1_S1024x1024 (ix2 q cc) = rowDist x0 (gathered (k0_pay5 (F := Ideal) x1) x2) (ix1 q) :=
    (Keepdims.broadcastTo_a1_ab_apply _ broadcasts_S1024x1_S1024x1024 q cc).trans
      (Keepdims.shapeCast_a_a1_apply _ shapeCasts_S1024_S1024x1 q 0)
  show k0_pay5 (F := Ideal) x1 (ix2 q cc) * broadcastTo S1024x1024
      (shapeCast S1024x1 (rowDist x0 (gathered (k0_pay5 (F := Ideal) x1) x2)) shapeCasts_S1024_S1024x1)
      broadcasts_S1024x1_S1024x1024 (ix2 q cc) = _
  rw [hb, hrow, pay5_apply]

end Cert.KernelIdeal.Pay

end
-- ==== Proof.ClassMath.lean ====
/-
  Facts about extended reals and finite sums on which the per-class reductions rest:
  a one-hot row times a table column picks one entry of the column; multiplying by a tabulated
  reciprocal of a nonzero variance is dividing by the variance; a sum over tiles and rows in a tile
  is a sum over all rows; and a sum weighted by a class indicator is the sum over the class's rows.
  The extended reals are a commutative monoid with zero and an additive commutative monoid, so finite
  sums may be re-ordered and re-grouped with no finiteness side condition.
-/
import proofs.«414106_j34806414967387_2_alg».proof.Proof.ClassSpec
import Idealize.ShloMosaic.PureOps.Ideal
import Mathlib.Algebra.BigOperators.Fin
import Mathlib.Algebra.BigOperators.Group.Finset.Basic
import Mathlib.Algebra.BigOperators.Group.Finset.Piecewise
import Mathlib.Data.Fintype.BigOperators
import Mathlib.Data.EReal.Basic
import Mathlib.Data.EReal.Operations

noncomputable section

open scoped BigOperators

namespace Cert.ClassMath

open Idealize.ShloMosaic Cert.ClassSpec

/-- The single-precision pattern 0x3F800000 (sign 0, exponent field 127, fraction 0) denotes 1. -/
theorem ofBits_one_f32 : Ideal.ofBits .f32 0x3F800000#32 = (1 : EReal) := by
  simp [Ideal.ofBits, Ideal.ieee, -EReal.coe_mul]; norm_num

/-- Off zero, division is multiplication by the inverse, so a · (1 / v) = a · (1 · v⁻¹) = a / v. -/
theorem mul_div_one (a v : EReal) (hv : v ≠ 0) : a * Ideal.div 1 v = Ideal.div a v := by
  simp only [Ideal.div, if_neg hv, one_mul]

/-- The class indicator times a value is the value on the class and 0 off it. -/
theorem hot_mul (l : BitVec 32) (c : ℕ) (y : EReal) :
    hot l c * y = if l.toInt = (c : ℤ) then y else 0 := by
  unfold hot
  by_cases h : l.toInt = (c : ℤ)
  · rw [if_pos h, if_pos h, one_mul]
  · rw [if_neg h, if_neg h, zero_mul]

/-- A one-hot row times a table column picks the labelled row: every other term is 0 · t = 0. -/
theorem hot_gather (l : BitVec 32) (i : Fin 1024) (h : l.toInt = (i.val : ℤ)) (t : Fin 1024 → EReal) :
    ∑ c' : Fin 1024, hot l c'.val * t c' = t i := by
  have hterm : ∀ c' : Fin 1024, hot l c'.val * t c' = if i = c' then t c' else 0 := by
    intro c'
    rw [hot_mul]
    by_cases hc : i = c'
    · rw [if_pos hc, if_pos (by rw [h, hc])]
    · have hne : l.toInt ≠ (c'.val : ℤ) := by
        intro h2
        apply hc
        apply Fin.ext
        have h3 : (i.val : ℤ) = (c'.val : ℤ) := h.symm.trans h2
        exact_mod_cast h3
      rw [if_neg hc, if_neg hne]
  rw [Finset.sum_congr rfl (fun c' _ => hterm c'), Finset.sum_ite_eq, if_pos (Finset.mem_univ i)]

/-- A label that names no row of the table gathers 0. -/
theorem hot_gather_none (l : BitVec 32) (h : ∀ c' : Fin 1024, l.toInt ≠ (c'.val : ℤ)) (t : Fin 1024 → EReal) :
    ∑ c' : Fin 1024, hot l c'.val * t c' = 0 := by
  apply Finset.sum_eq_zero
  intro c' _
  rw [hot_mul, if_neg (h c')]

/-- For a row of class c, gathering the means and the reciprocal variances through the one-hot row and
    multiplying gives the distance that divides by the variances, the variances being nonzero. -/
theorem rowDist_bridge (l : BitVec 32) (c : Fin 1000) (h : l.toInt = (c.val : ℤ)) (x mu v : Fin 512 → EReal)
    (T : Fin 1024 → Fin 1024 → EReal) (hmu : ∀ j, T (padRow c) (colLo j) = mu j)
    (hw : ∀ j, T (padRow c) (colHi j) = Ideal.div 1 (v j)) (hv : ∀ j, v j ≠ 0) :
    rowDistMul x (fun j => ∑ c' : Fin 1024, hot l c'.val * T c' (colLo j)) (fun j => ∑ c' : Fin 1024, hot l c'.val * T c' (colHi j))
      = rowDistDiv x mu v := by
  have hrow : l.toInt = ((padRow c).val : ℤ) := h
  unfold rowDistMul rowDistDiv
  apply Finset.sum_congr rfl
  intro j _
  have e1 : (∑ c' : Fin 1024, hot l c'.val * T c' (colLo j)) = mu j :=
    (hot_gather l (padRow c) hrow (fun c' => T c' (colLo j))).trans (hmu j)
  have e2 : (∑ c' : Fin 1024, hot l c'.val * T c' (colHi j)) = Ideal.div 1 (v j) :=
    (hot_gather l (padRow c) hrow (fun c' => T c' (colHi j))).trans (hw j)
  show clip100 ((x j - ∑ c' : Fin 1024, hot l c'.val * T c' (colLo j))
      * (x j - ∑ c' : Fin 1024, hot l c'.val * T c' (colLo j))
      * ∑ c' : Fin 1024, hot l c'.val * T c' (colHi j))
    = clip100 (Ideal.div ((x j - mu j) * (x j - mu j)) (v j))
  rw [e1, e2, mul_div_one _ _ (hv j)]

/-- Rows of the whole array correspond one to one to pairs (tile, row in the tile): r = 1024 t + q,
    t = r / 1024, q = r % 1024. -/
def tileEquiv : Fin 128 × Fin 1024 ≃ Fin 131072 where
  toFun p := tileRow p.1 p.2
  invFun r := (⟨r.val / 1024, by have := r.isLt; omega⟩, ⟨r.val % 1024, by omega⟩)
  left_inv := by
    rintro ⟨t, q⟩
    apply Prod.ext
    · apply Fin.ext
      show (t.val * 1024 + q.val) / 1024 = t.val
      have := q.isLt
      omega
    · apply Fin.ext
      show (t.val * 1024 + q.val) % 1024 = q.val
      have := q.isLt
      omega
  right_inv := by
    intro r
    apply Fin.ext
    show r.val / 1024 * 1024 + r.val % 1024 = r.val
    omega

/-- Summing tile by tile is summing over all rows. -/
theorem tiles_sum (f : Fin 131072 → EReal) : ∑ t : Fin 128, ∑ q : Fin 1024, f (tileRow t q) = ∑ r : Fin 131072, f r := by
  refine (Fintype.sum_prod_type' (fun t q => f (tileRow t q))).symm.trans ?_
  exact Equiv.sum_comp tileEquiv f

/-- A sum weighted by the indicator of class c is the sum over the rows of class c. -/
theorem hot_sum_filter (L : Fin 131072 → BitVec 32) (c : ℕ) (g : Fin 131072 → EReal) :
    ∑ r : Fin 131072, hot (L r) c * g r = ∑ r ∈ Finset.univ.filter (fun r : Fin 131072 => (L r).toInt = (c : ℤ)), g r := by
  rw [Finset.sum_filter]
  exact Finset.sum_congr rfl (fun r _ => hot_mul (L r) c (g r))

/-- The tiled, indicator-weighted sum of one summand is the sum over the class's rows of another summand
    that agrees with it on the class. -/
theorem class_sum_eq (L : Fin 131072 → BitVec 32) (c : ℕ) (gK gR : Fin 131072 → EReal)
    (hg : ∀ r, (L r).toInt = (c : ℤ) → gK r = gR r) :
    ∑ t : Fin 128, ∑ q : Fin 1024, hot (L (tileRow t q)) c * gK (tileRow t q)
      = ∑ r ∈ Finset.univ.filter (fun r : Fin 131072 => (L r).toInt = (c : ℤ)), gR r := by
  refine (tiles_sum (fun r => hot (L r) c * gK r)).trans ?_
  refine (hot_sum_filter L c gK).trans ?_
  apply Finset.sum_congr rfl
  intro r hr
  exact hg r (Finset.mem_filter.mp hr).2

/-- The tiled sum of the class indicator counts the class's rows. -/
theorem class_count_eq (L : Fin 131072 → BitVec 32) (c : ℕ) :
    ∑ t : Fin 128, ∑ q : Fin 1024, hot (L (tileRow t q)) c
      = ∑ r ∈ Finset.univ.filter (fun r : Fin 131072 => (L r).toInt = (c : ℤ)), (1 : EReal) := by
  refine (tiles_sum (fun r => hot (L r) c)).trans ?_
  rw [Finset.sum_filter]
  apply Finset.sum_congr rfl
  intro r _
  rfl

/-- A sum of 128 terms split into its first and second 64. -/
theorem two_halves (F : ℕ → EReal) :
    (∑ k ∈ Finset.range 64, F k) + (∑ k ∈ Finset.range 64, F (64 + k)) = ∑ t : Fin 128, F t.val := by
  refine (Finset.sum_range_add F 64 64).symm.trans ?_
  exact (Fin.sum_univ_eq_sum_range F 128).symm

end Cert.ClassMath

end
-- ==== Proof.KernelAcc.lean ====
/-
  What the kernel's two result blocks hold, point by point.

  The grid is 2 × 64: outer coordinate p, inner coordinate k, point t = 64 p + k. Both results (per-class sums and
  per-class counts, each an [8, 1024] block per p, every sublane equal) are accumulators over k: at k = 0 the
  block is reset to zero and then the tile's contribution is added; at k > 0 the contribution is added to what the
  point before left. A tile is 1024 feature rows; its contribution to lane c is, for the sums, the sum over the
  tile's rows labelled c of the row's clipped squared distance, and for the counts the number of such rows.
  So after point 64 p + k each block holds, in every sublane, the sum of the contributions of tiles
  64 p, …, 64 p + k, and the block written back after k = 63 holds the whole half's.
-/
import proofs.«414106_j34806414967387_2_alg».proof.Proof.Gen.KernelIdeal.Frame
import proofs.«414106_j34806414967387_2_alg».proof.Proof.ClassSpec
import proofs.«414106_j34806414967387_2_alg».proof.Proof.KernelPay
import proofs.«414106_j34806414967387_2_alg».proof.Proof.ClassMath
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-! ## What each control case leaves in each result's block -/

/-- Not the first inner point: the sums block ends at the running block it found plus the tile's contribution. -/
theorem out_B_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole) (hc0 : ¬cond0_0 i)
    (x0 : Vec F S1024x512 .f32) (x1 : Vec F S1024 .i32) (x2 : Vec F S1024x1024 .bf16) (xo3 xo4 : Vec F S8x1024 .f32) :
    out0_B_3 c i arg2 harg2 arg3 harg3 arg4 harg4 arg5 harg5 arg6 harg6 hc0 x0 x1 x2 xo3 xo4 = k0_pay7 x0 x1 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz]
  simp only [View.readAt_eq_ld, harg2.read_unread, harg3.read_unread, harg4.read_unread, harg5.read_unread,
    View.ld_unit_zero (S := S1024x512) hz, View.ld_unit_zero (S := S1024) hz1, View.ld_unit_zero (S := S1024x1024) hz,
    View.ld_unit_zero (S := S8x1024) hz]

/-- Not the first inner point: the counts block ends at the running block it found plus the tile's counts. -/
theorem out_B_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole) (hc0 : ¬cond0_0 i)
    (x0 : Vec F S1024x512 .f32) (x1 : Vec F S1024 .i32) (x2 : Vec F S1024x1024 .bf16) (xo3 xo4 : Vec F S8x1024 .f32) :
    out0_B_4 c i arg2 harg2 arg3 harg3 arg4 harg4 arg5 harg5 arg6 harg6 hc0 x0 x1 x2 xo3 xo4 = k0_pay1 (k0_pay6 x1) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S1024x512) hz, View.ld_unit_zero (S := S1024) hz1, View.ld_unit_zero (S := S1024x1024) hz,
    View.ld_unit_zero (S := S8x1024) hz]

/-- The first inner point: the sums block is reset to zero, read back, and ends at zero plus the tile's contribution. -/
theorem out_A_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole) (hc0 : cond0_0 i)
    (x0 : Vec F S1024x512 .f32) (x1 : Vec F S1024 .i32) (x2 : Vec F S1024x1024 .bf16) :
    out0_A_3 c i arg2 harg2 arg3 harg3 arg4 harg4 arg5 harg5 arg6 harg6 hc0 x0 x1 x2 = k0_pay7 x0 x1 x2 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S8x1024) hz, View.readCov_unit_zero (S := S8x1024) _ hz]
  simp only [View.readAt_eq_ld, harg2.read_unread, harg3.read_unread, harg4.read_unread,
    View.ld_unit_zero (S := S1024x512) hz, View.ld_unit_zero (S := S1024) hz1, View.ld_unit_zero (S := S1024x1024) hz,
    View.ld_unit_zero (S := S8x1024) hz]

/-- The first inner point: the counts block is reset to zero, read back, and ends at zero plus the tile's counts. -/
theorem out_A_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole) (hc0 : cond0_0 i)
    (x0 : Vec F S1024x512 .f32) (x1 : Vec F S1024 .i32) (x2 : Vec F S1024x1024 .bf16) :
    out0_A_4 c i arg2 harg2 arg3 harg3 arg4 harg4 arg5 harg5 arg6 harg6 hc0 x0 x1 x2 = k0_pay1 (k0_pay6 x1) (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S8x1024) hz, View.readCov_unit_zero (S := S8x1024) _ hz]
  simp only [View.readAt_eq_ld, harg2.read_unread, harg3.read_unread, harg4.read_unread,
    View.ld_unit_zero (S := S1024x512) hz, View.ld_unit_zero (S := S1024) hz1, View.ld_unit_zero (S := S1024x1024) hz,
    View.ld_unit_zero (S := S8x1024) hz]

/-! ## The blocks a point reads, by their literal types -/

variable (m : (ℓ : Loc nD τ sig) → Buf (Elt F) ℓ)

abbrev xblk (c : Dev nD) (t : Fin cfg0.N) : Vec F S1024x512 .f32 := iblk m c 0 t
abbrev lblk (c : Dev nD) (t : Fin cfg0.N) : Vec F S1024 .i32 := iblk m c 1 t
abbrev tblk (c : Dev nD) (t : Fin cfg0.N) : Vec F S1024x1024 .bf16 := iblk m c 2 t

theorem outs_A (c : Dev nD) (t : Fin cfg0.N) (h0 : t.val % 64 = 0) :
    outsAt0 m c t.val t.isLt
      = (k0_pay7 (xblk m c t) (lblk m c t) (tblk m c t) (k0_pay2 (F := F)), k0_pay1 (k0_pay6 (lblk m c t)) (k0_pay3 (F := F))) := by
  rw [outsAt0_A m c t h0]
  exact congrArg₂ Prod.mk
    (out_A_3 c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (lblk m c t) (tblk m c t))
    (out_A_4 c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (lblk m c t) (tblk m c t))

theorem outs_B (c : Dev nD) (t : Fin cfg0.N) (h0 : ¬t.val % 64 = 0) :
    outsAt0 m c t.val t.isLt
      = (k0_pay7 (xblk m c t) (lblk m c t) (tblk m c t) (outsAt0 m c (t.val - 1) (Nat.lt_of_le_of_lt (Nat.sub_le _ _) t.isLt)).1,
         k0_pay1 (k0_pay6 (lblk m c t)) (outsAt0 m c (t.val - 1) (Nat.lt_of_le_of_lt (Nat.sub_le _ _) t.isLt)).2) := by
  rw [outsAt0_B m c t h0]
  exact congrArg₂ Prod.mk
    (out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (lblk m c t) (tblk m c t)
      (outsAt0 m c (t.val - 1) (Nat.lt_of_le_of_lt (Nat.sub_le _ _) t.isLt)).1 (outsAt0 m c (t.val - 1) (Nat.lt_of_le_of_lt (Nat.sub_le _ _) t.isLt)).2)
    (out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (lblk m c t) (tblk m c t)
      (outsAt0 m c (t.val - 1) (Nat.lt_of_le_of_lt (Nat.sub_le _ _) t.isLt)).1 (outsAt0 m c (t.val - 1) (Nat.lt_of_le_of_lt (Nat.sub_le _ _) t.isLt)).2)

/-! ## The printed index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 1) = t.val :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 64 ∧ win0_3.index t (1 : Fin 2) = 0 :=
  (by decide +kernel : ∀ t : Fin grid0.N, _)
theorem idx4 : ∀ t : Fin cfg0.N, win0_4.index t (0 : Fin 2) = t.val / 64 ∧ win0_4.index t (1 : Fin 2) = 0 :=
  (by decide +kernel : ∀ t : Fin grid0.N, _)

/-! ## A tile's blocks are rows of the whole arrays -/

/-- Row q, column j of tile t's feature block is row 1024 t + q, column j of the feature array. -/
theorem xblk_apply (c : Dev nD) (t : Fin cfg0.N) (q : Fin 1024) (j : Fin 512) (r : Fin 131072) (hr : r.val = t.val * 1024 + q.val) :
    xblk m c t (ValueIdx.ix2 q j) = m ((c : Thread nD τ).loc main_arg0) (ValueIdx.ix2 r j) := by
  obtain ⟨e0, e1⟩ := idx0 t
  show V m c main_arg0 (((cfg0.win 0).blk t).view.emb (ValueIdx.ix2 q j)) = _
  rw [V_main_arg0]
  refine congrArg _ (funext fun a => Fin.ext ?_)
  match a with
  | ⟨0, _⟩ => show win0_0.index t (0 : Fin 2) * 1024 + 1 * q.val = r.val; rw [e0, hr]; omega
  | ⟨1, _⟩ => show win0_0.index t (1 : Fin 2) * 512 + 1 * j.val = j.val; rw [e1]; omega

/-- Entry q of tile t's label block is entry 1024 t + q of the label array. -/
theorem lblk_apply (c : Dev nD) (t : Fin cfg0.N) (q : Fin 1024) (r : Fin 131072) (hr : r.val = t.val * 1024 + q.val) :
    lblk m c t (ValueIdx.ix1 q) = m ((c : Thread nD τ).loc main_arg6) (ValueIdx.ix1 r) := by
  have e0 := idx1 t
  show V m c main_arg6 (((cfg0.win 1).blk t).view.emb (ValueIdx.ix1 q)) = _
  rw [V_main_arg6]
  refine congrArg _ (funext fun a => Fin.ext ?_)
  match a with
  | ⟨0, _⟩ => show win0_1.index t (0 : Fin 1) * 1024 + 1 * q.val = r.val; rw [e0, hr]; omega

/-- Every tile's table block is the whole table. -/
theorem tblk_apply (c : Dev nD) (t : Fin cfg0.N) (a b : Fin 1024) :
    tblk m c t (ValueIdx.ix2 a b) = V m c main_v53 (ValueIdx.ix2 a b) := by
  obtain ⟨e0, e1⟩ := idx2 t
  show V m c main_v53 (((cfg0.win 2).blk t).view.emb (ValueIdx.ix2 a b)) = _
  refine congrArg _ (funext fun ax => Fin.ext ?_)
  match ax with
  | ⟨0, _⟩ => show win0_2.index t (0 : Fin 2) * 1024 + 1 * a.val = a.val; rw [e0]; omega
  | ⟨1, _⟩ => show win0_2.index t (1 : Fin 2) * 1024 + 1 * b.val = b.val; rw [e1]; omega

theorem outsAt0_congr (c : Dev nD) {n n' : ℕ} (e : n = n') (h : n < cfg0.N) (h' : n' < cfg0.N) :
    outsAt0 m c n h = outsAt0 m c n' h' := by subst e; rfl

/-- The last point of the outer coordinate that owns row a of a [16, 1024] result. -/
def lastOf (a : ℕ) : ℕ := 64 * (a / 8) + 63
theorem lastOf_lt {a : ℕ} (ha : a < 16) : lastOf a < cfg0.N := by
  rw [show cfg0.N = 128 from N_0]; unfold lastOf; omega

/-- The sums array after the run: row a holds sublane a mod 8 of what the last point of its half left. -/
def G3 (c : Dev nD) : Buf (Elt F) ((c : Thread nD τ).loc main_v54_0) := fun (y : S16x1024.Idx) =>
  (outsAt0 m c (lastOf (y 0).val) (lastOf_lt (y 0).isLt)).1
    (ValueIdx.ix2 (⟨(y 0).val % 8, Nat.mod_lt _ (by decide)⟩ : Fin 8) (⟨(y 1).val, (y 1).isLt⟩ : Fin 1024))

theorem flushed3_eq (c : Dev nD) (t : Fin cfg0.N) (hf : (cfg0.win 3).flush t = true) :
    (dats m 0 c).flushed 3 t = ((cfg0.win 3).blk t).view.read (Elt F) (G3 m c) := by
  have hN : cfg0.N = 128 := N_0
  have h63 : t.val % 64 = 63 := (flush0_3 t).mp hf
  obtain ⟨e0, e1⟩ := idx3 t
  show (cfg0.win 3).cut (grid0.coords t) ((dats m 0 c).after 3 t) = _
  rw [after0_3]
  funext j
  have hj0 : (j 0).val < 8 := (j 0).isLt
  have hj1 : (j 1).val < 1024 := (j 1).isLt
  have hemb0 : ((((cfg0.win 3).blk t).view.emb j) 0).val = win0_3.index t (0 : Fin 2) * 8 + 1 * (j 0).val := rfl
  have hemb1 : ((((cfg0.win 3).blk t).view.emb j) 1).val = win0_3.index t (1 : Fin 2) * 1024 + 1 * (j 1).val := rfl
  have hl : t.val = lastOf ((((cfg0.win 3).blk t).view.emb j) 0).val := by rw [hemb0, e0]; unfold lastOf; omega
  show _ = G3 m c (((cfg0.win 3).blk t).view.emb j)
  unfold G3
  refine Eq.trans ?_ (congrFun (congrArg Prod.fst (outsAt0_congr m c hl t.isLt (lastOf_lt (((cfg0.win 3).blk t).view.emb j 0).isLt))) _)
  refine congrArg _ (funext fun a => Fin.ext ?_)
  match a with
  | ⟨0, _⟩ => show (j 0).val = ((((cfg0.win 3).blk t).view.emb j) 0).val % 8; rw [hemb0, e0]; omega
  | ⟨1, _⟩ => show (j 1).val = ((((cfg0.win 3).blk t).view.emb j) 1).val; rw [hemb1, e1]; omega

/-- Row a of the result array lies in the block the last point of its half writes back. -/
theorem mem_blk3 (t : Fin cfg0.N) (i : S16x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v54_0).slice (win0_3.rect t)).set ↔ _
  rw [View.set_slice_whole, Rect.mem_set_unit]
  exact Iff.rfl

/-- The counts array after the run: row a holds sublane a mod 8 of what the last point of its half left. -/
def G4 (c : Dev nD) : Buf (Elt F) ((c : Thread nD τ).loc main_v54_1) := fun (y : S16x1024.Idx) =>
  (outsAt0 m c (lastOf (y 0).val) (lastOf_lt (y 0).isLt)).2
    (ValueIdx.ix2 (⟨(y 0).val % 8, Nat.mod_lt _ (by decide)⟩ : Fin 8) (⟨(y 1).val, (y 1).isLt⟩ : Fin 1024))

theorem flushed4_eq (c : Dev nD) (t : Fin cfg0.N) (hf : (cfg0.win 4).flush t = true) :
    (dats m 0 c).flushed 4 t = ((cfg0.win 4).blk t).view.read (Elt F) (G4 m c) := by
  have hN : cfg0.N = 128 := N_0
  have h63 : t.val % 64 = 63 := (flush0_4 t).mp hf
  obtain ⟨e0, e1⟩ := idx4 t
  show (cfg0.win 4).cut (grid0.coords t) ((dats m 0 c).after 4 t) = _
  rw [after0_4]
  funext j
  have hj0 : (j 0).val < 8 := (j 0).isLt
  have hj1 : (j 1).val < 1024 := (j 1).isLt
  have hemb0 : ((((cfg0.win 4).blk t).view.emb j) 0).val = win0_4.index t (0 : Fin 2) * 8 + 1 * (j 0).val := rfl
  have hemb1 : ((((cfg0.win 4).blk t).view.emb j) 1).val = win0_4.index t (1 : Fin 2) * 1024 + 1 * (j 1).val := rfl
  have hl : t.val = lastOf ((((cfg0.win 4).blk t).view.emb j) 0).val := by rw [hemb0, e0]; unfold lastOf; omega
  show _ = G4 m c (((cfg0.win 4).blk t).view.emb j)
  unfold G4
  refine Eq.trans ?_ (congrFun (congrArg Prod.snd (outsAt0_congr m c hl t.isLt (lastOf_lt (((cfg0.win 4).blk t).view.emb j 0).isLt))) _)
  refine congrArg _ (funext fun a => Fin.ext ?_)
  match a with
  | ⟨0, _⟩ => show (j 0).val = ((((cfg0.win 4).blk t).view.emb j) 0).val % 8; rw [hemb0, e0]; omega
  | ⟨1, _⟩ => show (j 1).val = ((((cfg0.win 4).blk t).view.emb j) 1).val; rw [hemb1, e1]; omega

theorem mem_blk4 (t : Fin cfg0.N) (i : S16x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v54_1).slice (win0_4.rect t)).set ↔ _
  rw [View.set_slice_whole, Rect.mem_set_unit]
  exact Iff.rfl

/-- Every row of the sums array is written back by the last point of its half: the array ends at G3. -/
theorem final3 (c : Dev nD) : (dats m 0 c).arrAt 3 cfg0.N = G3 m c :=
  (dats m 0 c).arrAt_eq_of_cover 3 (G3 m c) (flushed3_eq m c) fun i => by
    have hN : cfg0.N = 128 := N_0
    have hi0 : (i 0).val < 16 := (i 0).isLt
    have hi1 : (i 1).val < 1024 := (i 1).isLt
    refine ⟨⟨lastOf (i 0).val, lastOf_lt hi0⟩, (flush0_3 _).mpr (by show lastOf (i 0).val % 64 = 63; unfold lastOf; omega), ?_⟩
    rw [mem_blk3]
    obtain ⟨e0, e1⟩ := idx3 ⟨lastOf (i 0).val, lastOf_lt hi0⟩
    have e0' : win0_3.index ⟨lastOf (i 0).val, lastOf_lt hi0⟩ (0 : Fin 2) = (i 0).val / 8 := by rw [e0]; show lastOf (i 0).val / 64 = _; unfold lastOf; omega
    intro a
    match a with
    | ⟨0, _⟩ => show win0_3.index _ (0 : Fin 2) * 8 ≤ (i 0).val ∧ (i 0).val < win0_3.index _ (0 : Fin 2) * 8 + 8; rw [e0']; omega
    | ⟨1, _⟩ => show win0_3.index _ (1 : Fin 2) * 1024 ≤ (i 1).val ∧ (i 1).val < win0_3.index _ (1 : Fin 2) * 1024 + 1024; rw [e1]; omega

/-- The same for the counts array. -/
theorem final4 (c : Dev nD) : (dats m 0 c).arrAt 4 cfg0.N = G4 m c :=
  (dats m 0 c).arrAt_eq_of_cover 4 (G4 m c) (flushed4_eq m c) fun i => by
    have hN : cfg0.N = 128 := N_0
    have hi0 : (i 0).val < 16 := (i 0).isLt
    have hi1 : (i 1).val < 1024 := (i 1).isLt
    refine ⟨⟨lastOf (i 0).val, lastOf_lt hi0⟩, (flush0_4 _).mpr (by show lastOf (i 0).val % 64 = 63; unfold lastOf; omega), ?_⟩
    rw [mem_blk4]
    obtain ⟨e0, e1⟩ := idx4 ⟨lastOf (i 0).val, lastOf_lt hi0⟩
    have e0' : win0_4.index ⟨lastOf (i 0).val, lastOf_lt hi0⟩ (0 : Fin 2) = (i 0).val / 8 := by rw [e0]; show lastOf (i 0).val / 64 = _; unfold lastOf; omega
    intro a
    match a with
    | ⟨0, _⟩ => show win0_4.index _ (0 : Fin 2) * 8 ≤ (i 0).val ∧ (i 0).val < win0_4.index _ (0 : Fin 2) * 8 + 8; rw [e0']; omega
    | ⟨1, _⟩ => show win0_4.index _ (1 : Fin 2) * 1024 ≤ (i 1).val ∧ (i 1).val < win0_4.index _ (1 : Fin 2) * 1024 + 1024; rw [e1]; omega

/-! ## At the extended reals: the running blocks are partial sums of the tiles' contributions -/

section AtIdeal

open Cert.ClassSpec Idealize.ShloMosaic.ValueIdx Cert.KernelIdeal.Pay

variable (m : (ℓ : Loc nD τ sig) → Buf (Elt Ideal) ℓ)

/-- Tile t's contribution to lane cc of the sums: over its rows labelled cc, the row's clipped squared distance to the
    table row its own label gathers. -/
def tileSum (c : Dev nD) (t : Fin cfg0.N) (cc : Fin 1024) : EReal :=
  ∑ q : Fin 1024, hot (lblk m c t (ix1 q)) cc.val *
    rowDistMul (fun j => xblk m c t (ix2 q j))
      (fun j => ∑ c' : Fin 1024, hot (lblk m c t (ix1 q)) c'.val * tblk m c t (ix2 c' (colLo j)))
      (fun j => ∑ c' : Fin 1024, hot (lblk m c t (ix1 q)) c'.val * tblk m c t (ix2 c' (colHi j)))

/-- Tile t's contribution to lane cc of the counts: the number of its rows labelled cc. -/
def tileCnt (c : Dev nD) (t : Fin cfg0.N) (cc : Fin 1024) : EReal := ∑ q : Fin 1024, hot (lblk m c t (ix1 q)) cc.val

def tileSumN (c : Dev nD) (n : ℕ) (cc : Fin 1024) : EReal := if h : n < cfg0.N then tileSum m c ⟨n, h⟩ cc else 0
def tileCntN (c : Dev nD) (n : ℕ) (cc : Fin 1024) : EReal := if h : n < cfg0.N then tileCnt m c ⟨n, h⟩ cc else 0

theorem tileSumN_of_lt (c : Dev nD) {n : ℕ} (h : n < cfg0.N) (cc : Fin 1024) : tileSumN m c n cc = tileSum m c ⟨n, h⟩ cc := dif_pos h
theorem tileCntN_of_lt (c : Dev nD) {n : ℕ} (h : n < cfg0.N) (cc : Fin 1024) : tileCntN m c n cc = tileCnt m c ⟨n, h⟩ cc := dif_pos h

/-- At the first point of a half both blocks are the tile's own contribution. -/
theorem inv_first (c : Dev nD) (n : ℕ) (h : n < cfg0.N) (h0 : n % 64 = 0) (s : Fin 8) (cc : Fin 1024) :
    (outsAt0 m c n h).1 (ix2 s cc) = tileSumN m c n cc ∧ (outsAt0 m c n h).2 (ix2 s cc) = tileCntN m c n cc := by
  have e := outs_A m c ⟨n, h⟩ h0
  have e1 : (outsAt0 m c n h).1 = k0_pay7 (xblk m c ⟨n, h⟩) (lblk m c ⟨n, h⟩) (tblk m c ⟨n, h⟩) (k0_pay2 (F := Ideal)) := congrArg Prod.fst e
  have e2 : (outsAt0 m c n h).2 = k0_pay1 (k0_pay6 (lblk m c ⟨n, h⟩)) (k0_pay3 (F := Ideal)) := congrArg Prod.snd e
  constructor
  · refine (congrFun e1 _).trans ?_
    refine (pay7_apply (xblk m c ⟨n, h⟩) (lblk m c ⟨n, h⟩) (tblk m c ⟨n, h⟩) (k0_pay2 (F := Ideal)) s cc).trans ?_
    rw [pay2_apply, zero_add, tileSumN_of_lt m c h]
    rfl
  · refine (congrFun e2 _).trans ?_
    refine (pay1_apply (lblk m c ⟨n, h⟩) (k0_pay3 (F := Ideal)) s cc).trans ?_
    rw [pay3_apply, zero_add, tileCntN_of_lt m c h]
    rfl

/-- At a later point both blocks are what the point before left plus the tile's own contribution. -/
theorem inv_next (c : Dev nD) (n : ℕ) (h : n + 1 < cfg0.N) (h0 : ¬(n + 1) % 64 = 0) (s : Fin 8) (cc : Fin 1024) :
    (outsAt0 m c (n + 1) h).1 (ix2 s cc) = (outsAt0 m c n (Nat.lt_of_succ_lt h)).1 (ix2 s cc) + tileSumN m c (n + 1) cc
    ∧ (outsAt0 m c (n + 1) h).2 (ix2 s cc) = (outsAt0 m c n (Nat.lt_of_succ_lt h)).2 (ix2 s cc) + tileCntN m c (n + 1) cc := by
  have e := outs_B m c ⟨n + 1, h⟩ h0
  have e1 : (outsAt0 m c (n + 1) h).1 = k0_pay7 (xblk m c ⟨n + 1, h⟩) (lblk m c ⟨n + 1, h⟩) (tblk m c ⟨n + 1, h⟩) (outsAt0 m c n (Nat.lt_of_succ_lt h)).1 := congrArg Prod.fst e
  have e2 : (outsAt0 m c (n + 1) h).2 = k0_pay1 (k0_pay6 (lblk m c ⟨n + 1, h⟩)) (outsAt0 m c n (Nat.lt_of_succ_lt h)).2 := congrArg Prod.snd e
  constructor
  · refine (congrFun e1 _).trans ?_
    refine (pay7_apply (xblk m c ⟨n + 1, h⟩) (lblk m c ⟨n + 1, h⟩) (tblk m c ⟨n + 1, h⟩) (outsAt0 m c n (Nat.lt_of_succ_lt h)).1 s cc).trans ?_
    rw [tileSumN_of_lt m c h]
    rfl
  · refine (congrFun e2 _).trans ?_
    refine (pay1_apply (lblk m c ⟨n + 1, h⟩) (outsAt0 m c n (Nat.lt_of_succ_lt h)).2 s cc).trans ?_
    rw [tileCntN_of_lt m c h]
    rfl

/-- After point n (inner coordinate n mod 64) each block holds, in every sublane, the sum of the contributions of the
    tiles of its half up to n. -/
theorem outs_inv (c : Dev nD) (s : Fin 8) (cc : Fin 1024) : ∀ (n : ℕ) (h : n < cfg0.N),
    (outsAt0 m c n h).1 (ix2 s cc) = ∑ k ∈ Finset.range (n % 64 + 1), tileSumN m c (n - n % 64 + k) cc
    ∧ (outsAt0 m c n h).2 (ix2 s cc) = ∑ k ∈ Finset.range (n % 64 + 1), tileCntN m c (n - n % 64 + k) cc
  | 0, h => by
    have := inv_first m c 0 h rfl s cc
    simpa using this
  | n + 1, h => by
    by_cases h0 : (n + 1) % 64 = 0
    · have := inv_first m c (n + 1) h h0 s cc
      rw [h0]
      simpa using this
    · obtain ⟨a1, a2⟩ := inv_next m c n h h0 s cc
      obtain ⟨i1, i2⟩ := outs_inv c s cc n (Nat.lt_of_succ_lt h)
      have hm : (n + 1) % 64 = n % 64 + 1 := by omega
      have hb : n + 1 - (n % 64 + 1) = n - n % 64 := by omega
      have hl : n - n % 64 + (n % 64 + 1) = n + 1 := by omega
      constructor
      · rw [a1, i1, hm, hb, Finset.sum_range_succ _ (n % 64 + 1), hl]
      · rw [a2, i2, hm, hb, Finset.sum_range_succ _ (n % 64 + 1), hl]

end AtIdeal

section Totals

open Cert.ClassSpec Idealize.ShloMosaic.ValueIdx Cert.KernelIdeal.Pay

variable (m : (ℓ : Loc nD τ sig) → Buf (Elt Ideal) ℓ)

/-- The two result arrays after the run, by their literal type. -/
abbrev sumsArr (c : Dev nD) : Vec Ideal S16x1024 .f32 := (dats m 0 c).arrAt 3 cfg0.N
abbrev cntsArr (c : Dev nD) : Vec Ideal S16x1024 .f32 := (dats m 0 c).arrAt 4 cfg0.N

theorem sumsArr_eq (c : Dev nD) : sumsArr m c = G3 m c := final3 m c
theorem cntsArr_eq (c : Dev nD) : cntsArr m c = G4 m c := final4 m c

/-- Row a of the sums array is sublane a mod 8 of what the last point of its half left. -/
theorem G3_row (c : Dev nD) (a : Fin 16) (cc : Fin 1024) :
    G3 m c (ix2 a cc) = (outsAt0 m c (lastOf a.val) (lastOf_lt a.isLt)).1 (ix2 (⟨a.val % 8, Nat.mod_lt _ (by decide)⟩ : Fin 8) cc) := rfl
theorem G4_row (c : Dev nD) (a : Fin 16) (cc : Fin 1024) :
    G4 m c (ix2 a cc) = (outsAt0 m c (lastOf a.val) (lastOf_lt a.isLt)).2 (ix2 (⟨a.val % 8, Nat.mod_lt _ (by decide)⟩ : Fin 8) cc) := rfl

/-- Rows 0 and 8 of the sums array (sublane 0 of either half) add up to the sum over all 128 tiles. -/
theorem sums_rows (c : Dev nD) (cc : Fin 1024) :
    sumsArr m c (ix2 (0 : Fin 16) cc) + sumsArr m c (ix2 (8 : Fin 16) cc)
      = ∑ t : Fin 128, tileSumN m c t.val cc := by
  have hN : cfg0.N = 128 := N_0
  rw [sumsArr_eq]
  have h0 := (outs_inv m c (0 : Fin 8) cc 63 (by rw [hN]; decide)).1
  have h1 := (outs_inv m c (0 : Fin 8) cc 127 (by rw [hN]; decide)).1
  have h0' : (outsAt0 m c 63 (by rw [hN]; decide)).1 (ix2 (0 : Fin 8) cc) = ∑ k ∈ Finset.range 64, tileSumN m c k cc := by
    simpa using h0
  have h1' : (outsAt0 m c 127 (by rw [hN]; decide)).1 (ix2 (0 : Fin 8) cc) = ∑ k ∈ Finset.range 64, tileSumN m c (64 + k) cc := by
    simpa using h1
  have r0 : G3 m c (ix2 (0 : Fin 16) cc) = (outsAt0 m c 63 (by rw [hN]; decide)).1 (ix2 (0 : Fin 8) cc) :=
    (G3_row m c 0 cc).trans (congrFun (congrArg Prod.fst (outsAt0_congr m c (rfl : lastOf (0 : Fin 16).val = 63) _ _)) _)
  have r8 : G3 m c (ix2 (8 : Fin 16) cc) = (outsAt0 m c 127 (by rw [hN]; decide)).1 (ix2 (0 : Fin 8) cc) :=
    (G3_row m c 8 cc).trans (congrFun (congrArg Prod.fst (outsAt0_congr m c (rfl : lastOf (8 : Fin 16).val = 127) _ _)) _)
  rw [r0, r8, h0', h1']
  exact Cert.ClassMath.two_halves (fun n => tileSumN m c n cc)

/-- Rows 0 and 8 of the counts array add up to the sum over all 128 tiles. -/
theorem counts_rows (c : Dev nD) (cc : Fin 1024) :
    cntsArr m c (ix2 (0 : Fin 16) cc) + cntsArr m c (ix2 (8 : Fin 16) cc)
      = ∑ t : Fin 128, tileCntN m c t.val cc := by
  have hN : cfg0.N = 128 := N_0
  rw [cntsArr_eq]
  have h0 := (outs_inv m c (0 : Fin 8) cc 63 (by rw [hN]; decide)).2
  have h1 := (outs_inv m c (0 : Fin 8) cc 127 (by rw [hN]; decide)).2
  have h0' : (outsAt0 m c 63 (by rw [hN]; decide)).2 (ix2 (0 : Fin 8) cc) = ∑ k ∈ Finset.range 64, tileCntN m c k cc := by
    simpa using h0
  have h1' : (outsAt0 m c 127 (by rw [hN]; decide)).2 (ix2 (0 : Fin 8) cc) = ∑ k ∈ Finset.range 64, tileCntN m c (64 + k) cc := by
    simpa using h1
  have r0 : G4 m c (ix2 (0 : Fin 16) cc) = (outsAt0 m c 63 (by rw [hN]; decide)).2 (ix2 (0 : Fin 8) cc) :=
    (G4_row m c 0 cc).trans (congrFun (congrArg Prod.snd (outsAt0_congr m c (rfl : lastOf (0 : Fin 16).val = 63) _ _)) _)
  have r8 : G4 m c (ix2 (8 : Fin 16) cc) = (outsAt0 m c 127 (by rw [hN]; decide)).2 (ix2 (0 : Fin 8) cc) :=
    (G4_row m c 8 cc).trans (congrFun (congrArg Prod.snd (outsAt0_congr m c (rfl : lastOf (8 : Fin 16).val = 127) _ _)) _)
  rw [r0, r8, h0', h1']
  exact Cert.ClassMath.two_halves (fun n => tileCntN m c n cc)

/-- A tile's contribution to the sums, over the rows of the whole arrays (features X, labels L) and the table T. -/
theorem tileSumN_eq (c : Dev nD) (t : Fin 128) (cc : Fin 1024) :
    tileSumN m c t.val cc
      = ∑ q : Fin 1024, hot (m ((c : Thread nD τ).loc main_arg6) (ix1 (tileRow t q))) cc.val *
          rowDistMul (fun j => m ((c : Thread nD τ).loc main_arg0) (ix2 (tileRow t q) j))
            (fun j => ∑ c' : Fin 1024, hot (m ((c : Thread nD τ).loc main_arg6) (ix1 (tileRow t q))) c'.val * V m c main_v53 (ix2 c' (colLo j)))
            (fun j => ∑ c' : Fin 1024, hot (m ((c : Thread nD τ).loc main_arg6) (ix1 (tileRow t q))) c'.val * V m c main_v53 (ix2 c' (colHi j))) := by
  have hN : cfg0.N = 128 := N_0
  have ht : t.val < cfg0.N := by rw [hN]; exact t.isLt
  rw [tileSumN_of_lt m c ht]
  unfold tileSum
  have hx : ∀ (q : Fin 1024) (j : Fin 512), xblk m c ⟨t.val, ht⟩ (ix2 q j) = m ((c : Thread nD τ).loc main_arg0) (ix2 (tileRow t q) j) :=
    fun q j => xblk_apply m c ⟨t.val, ht⟩ q j (tileRow t q) rfl
  have hl : ∀ q : Fin 1024, lblk m c ⟨t.val, ht⟩ (ix1 q) = m ((c : Thread nD τ).loc main_arg6) (ix1 (tileRow t q)) :=
    fun q => lblk_apply m c ⟨t.val, ht⟩ q (tileRow t q) rfl
  have hT : ∀ a b : Fin 1024, tblk m c ⟨t.val, ht⟩ (ix2 a b) = V m c main_v53 (ix2 a b) := fun a b => tblk_apply m c ⟨t.val, ht⟩ a b
  simp only [hx, hl, hT]

/-- A tile's contribution to the counts, over the label array. -/
theorem tileCntN_eq (c : Dev nD) (t : Fin 128) (cc : Fin 1024) :
    tileCntN m c t.val cc = ∑ q : Fin 1024, hot (m ((c : Thread nD τ).loc main_arg6) (ix1 (tileRow t q))) cc.val := by
  have hN : cfg0.N = 128 := N_0
  have ht : t.val < cfg0.N := by rw [hN]; exact t.isLt
  rw [tileCntN_of_lt m c ht]
  unfold tileCnt
  have hl : ∀ q : Fin 1024, lblk m c ⟨t.val, ht⟩ (ix1 q) = m ((c : Thread nD τ).loc main_arg6) (ix1 (tileRow t q)) :=
    fun q => lblk_apply m c ⟨t.val, ht⟩ q (tileRow t q) rfl
  simp only [hl]

end Totals

end Cert.KernelIdeal.Acc

end
-- ==== Proof.KernelHostPre.lean ====
/-
  What the host operations that run before the kernel region leave in the buffers the region and the later
  operations read, as closed terms of the launch contents.

  Four tables are prepared from the arguments:
    * the variance table   v = softplus(raw) + 1e-4                                  (1000 × 512),
    * the log-variance row sums  Σ_j clip₋₁₀¹⁰ (log (2π · v_{c,j}))                   (1000),
    * the compensated prototypes (a gather, a convex step and a scatter by class)    (1000 × 512),
    * the padded table [ μ | 1 / v ] of 1024 rows and 1024 columns (24 zero rows below), narrowed to bf16.
  Each is spelled operation by operation, in the order and with the constants the program has, so that the
  buffer's contents at region entry are the term by unfolding alone. At the extended reals the padded table
  is then read at a class row: its left half is the mean, its right half the reciprocal variance.
-/
import proofs.«414106_j34806414967387_2_alg».proof.Proof.Gen.KernelIdeal.Frame
import proofs.«414106_j34806414967387_2_alg».proof.Proof.ClassSpec
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.KernelVsHost

noncomputable section

namespace Cert.KernelIdeal.HostPre

open Idealize.ShloMosaic Idealize.ShloMosaic.TcCoe Idealize.SL.Sem Idealize.ShloMosaic.ValueIdx
open Cert.KernelIdeal Cert.KernelIdeal.Gen Cert.ClassSpec

variable {F : FTy → Type} [FloatOps F]
variable (m : (ℓ : Loc nD τ sig) → Buf (Elt F) ℓ)

/-! ## The variance table -/

/-- The zero the softplus compares against, spread over the table. -/
def zeroTab : FVec F S1000x512 .f32 :=
  broadcastInDim S1000x512 ![] bcast_S_S1000x512 (constant (F := F) S_ .f32 0x00000000#32)

/-- softplus(x) = max(x, 0) + log1p(exp(−|x − 0|)), with x + 0 where x − 0 is not equal to itself. -/
def softplusK (x5 : Vec F S1000x512 .f32) : FVec F S1000x512 .f32 :=
  select (cmpf .une (subf x5 zeroTab) (subf x5 zeroTab))
    (addf x5 zeroTab)
    (addf (maximumf x5 zeroTab) (Host.log1p (Host.exp (Host.negf (Host.absf (subf x5 zeroTab))))))

/-- The variance table: softplus of the raw parameter plus 1e-4. -/
def varK (x5 : Vec F S1000x512 .f32) : FVec F S1000x512 .f32 :=
  addf (softplusK x5) (broadcastInDim S1000x512 ![] bcast_S_S1000x512 (constant (F := F) S_ .f32 0x38D1B717#32))

set_option maxRecDepth 8192 in
set_option maxHeartbeats 1600000 in
/-- The variance buffer at region entry is the variance table of the raw parameter as launched. -/
theorem V_var (c : Dev nD) : V m c main_v42 = varK (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-! ## The log-variance row sums -/

/-- log (2π · v), clipped to [−10, 10] (the maximum with −10 first, then the minimum with 10), entry by entry. -/
def logTermK (x5 : Vec F S1000x512 .f32) : FVec F S1000x512 .f32 :=
  minimumf (broadcastInDim S1000x512 ![] bcast_S_S1000x512 (id (constant (F := F) S_ .f32 0x41200000#32)))
    (maximumf (broadcastInDim S1000x512 ![] bcast_S_S1000x512 (id (constant (F := F) S_ .f32 0xC1200000#32)))
      (Host.log (mulf (broadcastInDim S1000x512 ![] bcast_S_S1000x512 (constant (F := F) S_ .f32 0x40C90FDB#32)) (varK x5))))

/-- The row sums of the clipped log terms, from zero: one number per class. -/
def logVarK (x5 : Vec F S1000x512 .f32) : FVec F S1000 .f32 :=
  Host.reduceAdd (logTermK x5) (constant (F := F) S_ .f32 0x00000000#32) reducesTo_S1000x512_S1000_d1 h_S_

set_option maxRecDepth 8192 in
set_option maxHeartbeats 1600000 in
/-- The log-variance buffer at region entry is the row sums of the raw parameter as launched. -/
theorem V_logVar (c : Dev nD) : V m c main_v47 = logVarK (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-! ## The padded table of means and reciprocal variances -/

/-- The reciprocal variances 1 / v, entry by entry. -/
def recipK (x5 : Vec F S1000x512 .f32) : FVec F S1000x512 .f32 :=
  Host.divf (broadcastInDim S1000x512 ![] bcast_S_S1000x512 (constant (F := F) S_ .f32 0x3F800000#32)) (varK x5)

/-- A 1000-row table with 24 rows of the integer zero (converted to a float) appended below. -/
def padK (x : Vec F S1000x512 .f32) : FVec F S1024x512 .f32 :=
  pad S1024x512 ![0, 0] ![24, 0] ![0, 0] x (sitofp (F := F) .f32 (constantI S_ 32 0#32)) pads_S1000x512_S1024x512_0240_000 h_S_

/-- The means and the reciprocal variances, each padded to 1024 rows, side by side, narrowed to bf16. -/
def tableK (x4 x5 : Vec F S1000x512 .f32) : FVec F S1024x1024 .bf16 :=
  truncf .bf16 (concatenate S1024x1024 1 [⟨S1024x512, padK x4⟩, ⟨S1024x512, padK (recipK x5)⟩]
    concatenates_S1024x512_S1024x512_S1024x1024_d1) bitsLt_bf16_f32

set_option maxRecDepth 8192 in
set_option maxHeartbeats 1600000 in
/-- The table buffer at region entry is the padded table of the means and the raw parameter as launched. -/
theorem V_table (c : Dev nD) : V m c main_v53 =
    tableK (m ((c : Thread nD τ).loc main_arg4)) (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-! ## The padded table read at a class row, over the extended reals -/

/-- A padded table read at a row below 1000 is the table there. -/
theorem padK_apply (x : Vec Ideal S1000x512 .f32) (cls : Fin 1000) (j : Fin 512) :
    padK (F := Ideal) x (ix2 (padRow cls) j) = x (ix2 cls j) := by
  unfold padK
  refine pad_apply_of_inside _ _ _ _ _ _ _ (ix2 (padRow cls) j) (ix2 cls j) ?_
  intro a
  match a with
  | ⟨0, _⟩ => show cls.val = 0 + cls.val * (0 + 1); omega
  | ⟨1, _⟩ => show j.val = 0 + j.val * (0 + 1); omega

/-- The left half of a class row is the class's mean. -/
theorem tableK_lo (x4 x5 : Vec Ideal S1000x512 .f32) (cls : Fin 1000) (j : Fin 512) :
    tableK (F := Ideal) x4 x5 (ix2 (padRow cls) (colLo j)) = x4 (ix2 cls j) := by
  unfold tableK
  rw [truncf_apply]
  refine (concatenate_pair_apply_left (1 : Fin S1024x1024.rank) _ _ concatenates_S1024x512_S1024x512_S1024x1024_d1
    (ix2 (padRow cls) (colLo j)) rfl (ix2 (padRow cls) j) ?_).trans (padK_apply x4 cls j)
  intro b
  match b with
  | ⟨0, _⟩ => rfl
  | ⟨1, _⟩ => rfl

/-- The right half of a class row is the reciprocal of the class's variance. -/
theorem tableK_hi (x4 x5 : Vec Ideal S1000x512 .f32) (cls : Fin 1000) (j : Fin 512) :
    tableK (F := Ideal) x4 x5 (ix2 (padRow cls) (colHi j))
      = Ideal.div (Ideal.ofBits .f32 0x3F800000#32) (varK (F := Ideal) x5 (ix2 cls j)) := by
  unfold tableK
  rw [truncf_apply]
  refine (concatenate_pair_apply_right (1 : Fin S1024x1024.rank) _ _ concatenates_S1024x512_S1024x512_S1024x1024_d1
    (ix2 (padRow cls) (colHi j)) rfl rfl (ix2 (padRow cls) j) ?_ ?_).trans ((padK_apply (recipK x5) cls j).trans ?_)
  · intro b hb
    match b with
    | ⟨0, _⟩ => rfl
    | ⟨1, _⟩ => exact absurd rfl hb
  · show j.val + 512 = 512 + j.val
    omega
  · rfl

/-! ## The compensated prototypes -/

/-- The class labels as a column of start indices, a negative label first moved up by 1000. -/
def wrapIdxK (x7 : IVec S1000 32) : IVec S1000x1 32 :=
  broadcastInDim S1000x1 ![0] bcast_S1000_S1000x1_0
    (select (cmpi .slt x7 (broadcastInDim S1000 ![] bcast_S_S1000 (constantI S_ 32 0#32)))
      (addi x7 (broadcastInDim S1000 ![] bcast_S_S1000 (constantI S_ 32 1000#32))) x7)

/-- The gate 1 / (1 + exp(−a)) of the gathered parameter a, one number per listed class. -/
def gateK (x3 : Vec F S1000 .f32) (x7 : IVec S1000 32) : FVec F S1000 .f32 :=
  Host.divf (broadcastInDim S1000 ![] bcast_S_S1000 (constant (F := F) S_ .f32 0x3F800000#32))
    (addf (broadcastInDim S1000 ![] bcast_S_S1000 (constant (F := F) S_ .f32 0x3F800000#32))
      (Host.exp (Host.negf (Host.gather gather_S1000_S1000x1_S1000_n_0_n_n_0_1_1 x3 (wrapIdxK x7)))))

/-- The compensated prototypes: for each listed class the row p + (1 − gate) · d of the gathered rows p and d,
    written back at that class's row; the other rows are the prototypes unchanged. -/
def compK (x1 x2 : Vec F S1000x512 .f32) (x3 : Vec F S1000 .f32) (x7 : Vec F S1000 .i32) : FVec F S1000x512 .f32 :=
  Host.scatter scatter_S1000x512_S1000x1_S1000x512_1_0_0_1 (fun _ b => b) x1 (wrapIdxK x7)
    (addf (Host.gather gather_S1000x512_S1000x1_S1000x512_1_0_n_n_0_1_1512 x1 (wrapIdxK x7))
      (mulf
        (broadcastInDim S1000x512 ![0, 1] bcast_S1000x1_S1000x512_0_1
          (broadcastInDim S1000x1 ![0] bcast_S1000_S1000x1_0
            (subf (broadcastInDim S1000 ![] bcast_S_S1000 (constant (F := F) S_ .f32 0x3F800000#32)) (gateK x3 x7))))
        (Host.gather gather_S1000x512_S1000x1_S1000x512_1_0_n_n_0_1_1512 x2 (wrapIdxK x7))))

set_option maxRecDepth 8192 in
set_option maxHeartbeats 3200000 in
/-- The prototype buffer at region entry is the compensated prototypes of the arguments as launched. -/
theorem V_comp (c : Dev nD) : V m c main_v39 =
    compK (m ((c : Thread nD τ).loc main_arg1)) (m ((c : Thread nD τ).loc main_arg2))
      (m ((c : Thread nD τ).loc main_arg3)) (m ((c : Thread nD τ).loc main_arg7)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Cert.KernelIdeal.HostPre

end
-- ==== Proof.KernelHostTail.lean ====
/-
  What the idealized kernel program's host operations after its one pallas_call region compute from the
  region's two result arrays.

  Both arrays are 16 x 1024. Rows 0 and 8 of an array hold two partial accumulations over the feature rows; their
  sum, cut to the first 1000 columns, is one number per class: from the first array the per-class sums of the
  clipped squared distances, from the second the per-class counts. From these and a vector lv computed before the
  region the scalar tail is
      mean over the classes with a positive count of  clip to [0, 10] of  0.5 * (lv_c + sums_c / max(counts_c, 1)),
  the mean taken as (sum over those classes) / max(number of those classes, 1).
-/
import proofs.«414106_j34806414967387_2_alg».proof.Proof.Gen.KernelIdeal.Frame
import proofs.«414106_j34806414967387_2_alg».proof.Proof.ClassSpec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostTail

open Idealize.ShloMosaic Idealize.ShloMosaic.TcCoe Idealize.SL.Sem Idealize.ShloMosaic.ValueIdx
open Idealize.ShloMosaic.Pipeline (Dat)
open Cert.KernelIdeal Cert.KernelIdeal.Gen Cert.ClassSpec

variable {F : FTy → Type} [FloatOps F]
variable (m : (ℓ : Loc nD τ sig) → Buf (Elt F) ℓ)

/-- Row 0 plus row 8 of a 16 x 1024 array, cut to its first 1000 columns: each row is sliced out as a 1 x 1024
    array, flattened to 1024 entries, the two are added entrywise and the first 1000 entries kept. -/
def rowsSum (A : Vec F S16x1024 .f32) : FVec F S1000 .f32 :=
  extractStridedSlice S1000 ![0]
    (addf
      (shapeCast S1024 (extractStridedSlice S1x1024 ![0, 0] A slices_S16x1024_S1x1024_0_0) shapeCasts_S1x1024_S1024)
      (shapeCast S1024 (extractStridedSlice S1x1024 ![8, 0] A slices_S16x1024_S1x1024_8_0) shapeCasts_S1x1024_S1024))
    slices_S1024_S1000_0

/-- The scalar tail as one function of lv, the per-class sums and the per-class counts:
    x_c = 0.5 * (lv_c + sums_c / max(counts_c, 1)), clipped to [0, 10] (the maximum with 0 first, then the minimum
    with 10); the classes kept are those with counts_c > 0; the result is the sum of the clipped x_c over the kept
    classes (0 elsewhere) divided by max(the number of kept classes, 1). -/
def tailK (lv sums counts : FVec F S1000 .f32) : FVec F S_ .f32 :=
  Host.divf
    (Host.reduceAdd
      (select
        (cmpf .ogt counts (broadcastInDim S1000 ![] bcast_S_S1000 (constant S_ .f32 0x00000000#32)))
        (minimumf
          (broadcastInDim S1000 ![] bcast_S_S1000 (id (constant S_ .f32 0x41200000#32)))
          (maximumf
            (broadcastInDim S1000 ![] bcast_S_S1000 (id (constant S_ .f32 0x00000000#32)))
            (mulf
              (broadcastInDim S1000 ![] bcast_S_S1000 (constant S_ .f32 0x3F000000#32))
              (addf lv
                (Host.divf sums
                  (maximumf counts (broadcastInDim S1000 ![] bcast_S_S1000 (constant S_ .f32 0x3F800000#32))))))))
        (broadcastInDim S1000 ![] bcast_S_S1000 (id (constant S_ .f32 0x00000000#32))))
      (constant S_ .f32 0x00000000#32) reducesTo_S1000_S_d0 h_S_)
    (maximumf
      (sitofp .f32
        (Host.reduce IntOp.addi
          (extui 32 (cmpf .ogt counts (broadcastInDim S1000 ![] bcast_S_S1000 (constant S_ .f32 0x00000000#32))) natLt_1_32)
          (constantI S_ 32 0#32) reducesTo_S1000_S_d0 h_S_))
      (constant S_ .f32 0x3F800000#32))

/-- The other result is written before the region and by no operation after it: it ends at what the region found. -/
theorem tail_comp (c : Dev nD) :
    Pipeline.afterTail₀ cfgs (dats m) 0 (V0 m) [hostOps1, hostOps1_1, hostOps1_2, hostOps1_3, hostOps1_4] c main_v39 = V m c main_v39 := by
  unfold Pipeline.afterTail₀
  rw [StableHlo.after_of_forall_not_mem (b := Proc.devRef .tc main_v39) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v39 (by exact (by decide : ∀ w, Pipeline.arrRef spec0 w ≠ main_v39))]

set_option maxHeartbeats 1000000 in
/-- The scalar result: the operations after the region, composed, applied to lv as the region found it and to the
    rows' sums of the region's two result arrays. -/
theorem tail_loss (c : Dev nD) :
    Pipeline.afterTail₀ cfgs (dats m) 0 (V0 m) [hostOps1, hostOps1_1, hostOps1_2, hostOps1_3, hostOps1_4] c main_v82
      = tailK (V m c main_v47) (rowsSum ((dats m 0 c).arrAt 3 cfg0.N)) (rowsSum ((dats m 0 c).arrAt 4 cfg0.N)) := by
  have e3 : Pipeline.withArrays (cfgs 0).spec c (V0 m c) (fun w => (dats m 0 c).arrAt w (cfgs 0).N) (Proc.devRef .tc main_v54_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v54_1)
      = (dats m 0 c).arrAt 4 cfg0.N := Pipeline.withArrays_arr spec0 launch0.win.arr_inj c _ _ 4
  have e47 : Pipeline.withArrays (cfgs 0).spec c (V0 m c) (fun w => (dats m 0 c).arrAt w (cfgs 0).N) (Proc.devRef .tc main_v47)
      = V m c main_v47 :=
    Pipeline.withArrays_of_ne _ c (V0 m c) _ main_v47 (by exact (by decide : ∀ w, Pipeline.arrRef spec0 w ≠ main_v47))
  unfold Pipeline.afterTail₀
  simp only [hostOps1, hostOps1_1, hostOps1_2, hostOps1_3, hostOps1_4, List.flatten_cons, List.flatten_nil, List.append_nil,
    List.cons_append, List.nil_append]
  show StableHlo.after _ _ (Proc.devRef .tc main_v82) = _
  after_results_simp
  rw [e3, e4, e47]
  rfl

/-- Row r of a 16 x 1024 array sliced out as a 1 x 1024 array (offset (r, 0)) and flattened, read at column q, is
    the array's entry (r, q): the flattening keeps the row-major position, 0 * 1024 + q = q, and the slice shifts
    the row coordinate by its offset. -/
theorem flatRow_apply {α : Type} (A : S16x1024.Idx → α) (off : Fin 2 → Nat) (hs : S16x1024.Slices off S1x1024)
    (r : Fin 16) (h0 : off 0 = r.val) (h1 : off 1 = 0) (q : Fin 1024) :
    shapeCast S1024 (extractStridedSlice S1x1024 off A hs) shapeCasts_S1x1024_S1024 (ix1 q) = A (ix2 r q) := by
  refine (shapeCast_apply _ shapeCasts_S1x1024_S1024 (ix1 q) (ix2 (0 : Fin 1) q) (by
    rw [Shape.rowMajor_val_two, Shape.rowMajor_val_one]; show 0 * 1024 + q.val = q.val; omega)).trans ?_
  exact extractStridedSlice_apply off A hs (ix2 (0 : Fin 1) q) (ix2 r q) (by
    intro a
    match a with
    | ⟨0, _⟩ => show r.val = off 0 + 0; omega
    | ⟨1, _⟩ => show q.val = off 1 + q.val; omega)

/-- The rows' sum at class i: entry (0, i) plus entry (8, i) of the array (the cut to 1000 columns has offset 0,
    and over the extended reals the entrywise float addition is +). -/
theorem rowsSum_apply (A : Vec Ideal S16x1024 .f32) (i : Fin 1000) :
    rowsSum (F := Ideal) A (ix1 i) = A (ix2 (0 : Fin 16) (padRow i)) + A (ix2 (8 : Fin 16) (padRow i)) := by
  unfold rowsSum
  refine (extractStridedSlice_apply ![0] _ slices_S1024_S1000_0 (ix1 i) (ix1 (padRow i)) (by
    intro a
    have ha : a = 0 := Subsingleton.elim _ _
    subst ha
    show i.val = 0 + i.val; omega)).trans ?_
  exact congrArg₂ (· + ·)
    (flatRow_apply A ![0, 0] slices_S16x1024_S1x1024_0_0 (0 : Fin 16) rfl rfl (padRow i))
    (flatRow_apply A ![8, 0] slices_S16x1024_S1x1024_8_0 (8 : Fin 16) rfl rfl (padRow i))

end Cert.KernelIdeal.HostTail

end
-- ==== Proof.LibScatterAddFlat.lean ====
/-
  The accumulating scatter of a flat operand: operand [N], start indices [n, 1], updates [n], no window axis, the
  operand's one axis inserted and named by the one component of the index vector. Update j lands on bin i exactly
  when its start index, read signed, equals i; an index outside [0, N) lands nowhere. So the scatter-add read at bin
  i is the operand there plus the sum of the updates whose index is i.
-/
import Idealize.ShloMosaic.PureOps.Ideal
import Idealize.ShloMosaic.Lib.ValueIdx

noncomputable section

open scoped BigOperators

namespace Cert.LibScatterAddFlat

open Idealize.ShloMosaic Idealize.ShloMosaic.ValueIdx

/-- A rank-1 index set is its one coordinate's. -/
def idxEquiv1 {n : Nat} : (⟨1, ![n]⟩ : Shape).Idx ≃ Fin n where
  toFun j := j 0
  invFun a := ix1 a
  left_inv j := (eq_ix1 j).symm
  right_inv a := rfl

/-- A sum over a rank-1 index set is the sum over the coordinate. -/
theorem sum_idx1 {M : Type*} [AddCommMonoid M] {n : Nat} (f : (⟨1, ![n]⟩ : Shape).Idx → M)
    (p : (⟨1, ![n]⟩ : Shape).Idx → Prop) [DecidablePred p] :
    ∑ j ∈ Finset.univ.filter p, f j = ∑ a ∈ Finset.univ.filter (fun a : Fin n => p (ix1 a)), f (ix1 a) := by
  refine Finset.sum_equiv (idxEquiv1 (n := n)) ?_ ?_
  · intro j
    simp only [Finset.mem_filter, Finset.mem_univ, true_and]
    rw [show ix1 (idxEquiv1 j) = j from (eq_ix1 j).symm]
  · intro j _
    rw [show ix1 (idxEquiv1 j) = j from (eq_ix1 j).symm]

/-- The dimension numbers of a scatter into a flat operand, one scalar update per start index. -/
abbrev flatDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- The window of update j starts at its start index, read signed. -/
theorem flat_start {N n w : Nat} (wf : ScatterDims.WF ⟨1, ![N]⟩ ⟨2, ![n, 1]⟩ ⟨1, ![n]⟩ [] [0] [0] 1)
    (j : Fin n) (idx : IVec ⟨2, ![n, 1]⟩ w) (a : Fin 1) :
    (flatDims N n wf).start (ix1 j) idx a = (idx (ix2 j (0 : Fin 1))).toInt := by
  obtain rfl : a = 0 := Subsingleton.elim _ _
  unfold ScatterDims.start
  rw [dif_pos (show (0 : Fin 1) ∈ (flatDims N n wf).scatterDimsToOperandDims from List.mem_singleton.mpr rfl)]
  have hsi : (flatDims N n wf).siIdx (ix1 j) ⟨List.idxOf (0 : Fin 1) (flatDims N n wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- There is no window axis: the window coordinate is 0. -/
theorem flat_window {N n : Nat} (wf : ScatterDims.WF ⟨1, ![N]⟩ ⟨2, ![n, 1]⟩ ⟨1, ![n]⟩ [] [0] [0] 1)
    (j : Fin n) (a : Fin 1) : (flatDims N n wf).window (ix1 j) a = 0 := by
  obtain rfl : a = 0 := Subsingleton.elim _ _
  unfold ScatterDims.window
  rw [dif_neg]
  simp [ScatterDims.sKept, Shape.kept, List.mem_filter, List.mem_finRange]

/-- Update j lands on bin i exactly when its start index, read signed, is i. -/
theorem flat_resultIdx?_eq_some_iff {N n w : Nat} (wf : ScatterDims.WF ⟨1, ![N]⟩ ⟨2, ![n, 1]⟩ ⟨1, ![n]⟩ [] [0] [0] 1)
    (j : Fin n) (idx : IVec ⟨2, ![n, 1]⟩ w) (i : Fin N) :
    (flatDims N n wf).resultIdx? (ix1 j) idx = some (ix1 i) ↔ (idx (ix2 j (0 : Fin 1))).toInt = (i.val : ℤ) := by
  unfold ScatterDims.resultIdx?
  have hs : ∀ a : Fin 1, (flatDims N n wf).start (ix1 j) idx a + ((flatDims N n wf).window (ix1 j) a : ℤ)
      = (idx (ix2 j (0 : Fin 1))).toInt := by
    intro a; rw [flat_start, flat_window]; simp
  constructor
  · intro h
    split at h
    · rename_i hall
      have h0 := congrFun (Option.some.inj h) 0
      have hv := congrArg Fin.val h0
      simp only at hv
      have := hall 0
      rw [hs] at this hv
      change ((idx (ix2 j (0 : Fin 1))).toInt.toNat) = i.val at hv
      omega
    · exact absurd h (by simp)
  · intro h
    have hall : ∀ a, 0 ≤ (flatDims N n wf).start (ix1 j) idx a + ((flatDims N n wf).window (ix1 j) a : ℤ) ∧
        (flatDims N n wf).start (ix1 j) idx a + ((flatDims N n wf).window (ix1 j) a : ℤ) < ((⟨1, ![N]⟩ : Shape).size a : ℤ) := by
      intro a
      obtain rfl : a = 0 := Subsingleton.elim _ _
      rw [hs, h]
      have := i.isLt
      constructor
      · omega
      · change (i.val : ℤ) < (N : ℤ); omega
    rw [dif_pos hall]
    congr 1
    funext a
    obtain rfl : a = 0 := Subsingleton.elim _ _
    refine Fin.ext ?_
    change ((flatDims N n wf).start (ix1 j) idx 0 + ((flatDims N n wf).window (ix1 j) 0 : ℤ)).toNat = i.val
    rw [hs, h]; simp

/-- THE FLAT SCATTER-ADD READ AT BIN i: the operand there plus the sum of the updates whose start index is i. -/
theorem scatterAdd_flat_apply {N n w : Nat} {φ : FTy} (wf : ScatterDims.WF ⟨1, ![N]⟩ ⟨2, ![n, 1]⟩ ⟨1, ![n]⟩ [] [0] [0] 1)
    (x : FVec Ideal ⟨1, ![N]⟩ φ) (idx : IVec ⟨2, ![n, 1]⟩ w) (upd : FVec Ideal ⟨1, ![n]⟩ φ) (i : Fin N) :
    Host.scatterAdd (flatDims N n wf) x idx upd (ix1 i)
      = x (ix1 i) + ∑ j ∈ Finset.univ.filter (fun j : Fin n => (idx (ix2 j (0 : Fin 1))).toInt = (i.val : ℤ)), upd (ix1 j) := by
  unfold Host.scatterAdd
  rw [Ideal.hostScatterAdd_def]
  unfold Ideal.hostScatterAdd
  congr 1
  rw [sum_idx1]
  refine Finset.sum_congr ?_ (fun _ _ => rfl)
  ext j
  simp only [Finset.mem_filter, Finset.mem_univ, true_and]
  exact flat_resultIdx?_eq_some_iff wf j idx i

end Cert.LibScatterAddFlat

end
-- ==== Proof.RefClass.lean ====
/-
  The reference's per-class statistics, read at a class index, over the extended reals.

  Each of the 131072 feature rows r carries an integer label. For a class c < 1000 the reference forms
      sums c   = Σ_{r : label r = c} Σ_j clip₀¹⁰⁰ ((x_{r,j} − μ_{c,j})² / v_{c,j}),
      counts c = #{r : label r = c},
  by two accumulating scatters into 1000 zero bins at the labels read signed (a label outside [0, 1000) lands
  nowhere). The row being summed is computed with the mean and variance rows gathered at the label wrapped into
  range (a negative label has 1000 added) and clamped; for a row whose label IS c, with 0 ≤ c < 1000, neither the
  wrap nor the clamp moves it, so both gathers read row c. The variance v = softplus(x₅) + 1e-4 is nowhere zero:
  softplus is a sum of two nonnegative extended reals and the added constant is a positive real.

  The scalar tail that follows reads only three vectors of length 1000 (the per-class log-variance sums, the
  per-class sums and the per-class counts); it is named here as one function of those three.
-/
import proofs.«414106_j34806414967387_2_alg».proof.Proof.ReferenceRead
import proofs.«414106_j34806414967387_2_alg».proof.Proof.ClassSpec
import proofs.«414106_j34806414967387_2_alg».proof.Proof.LibScatterAddFlat
import Idealize.ShloMosaic.Lib.ValueIdx
import Idealize.ShloMosaic.PureOps.Ideal.Laws

noncomputable section

open scoped BigOperators

namespace Cert.ReferenceIdeal.RefClass

open Idealize.ShloMosaic Idealize.ShloMosaic.ValueIdx Cert.ReferenceIdeal Cert.ReferenceIdeal.Read Cert.ClassSpec
open Cert.ReferenceIdeal.Gen Idealize.ShloMosaic.StableHlo Idealize.SL.Sem

/-! ## The scalar tail as one function of the three class vectors -/

/-- The tail: with n_c = max(counts_c, 1), the per-class value clip₀¹⁰ (½ · (lv_c + sums_c / n_c)) is kept where
    counts_c > 0 and replaced by 0 elsewhere; the result is the sum of the kept values over the classes divided by
    max(number of classes with counts_c > 0, 1). -/
def tailR {F : FTy → Type} [FloatOps F] (lv sums counts : (⟨S1000, .f32⟩ : BufTy).Contents (Elt F)) :
    (⟨S_, .f32⟩ : BufTy).Contents (Elt F) :=
  Host.divf
    (Host.reduceAdd
      (select
        (cmpf .ogt counts (broadcastInDim S1000 ![] bcast_S_S1000 (constant (F := F) S_ .f32 0x00000000#32)))
        (minimumf
          (broadcastInDim S1000 ![] bcast_S_S1000 (id (constant (F := F) S_ .f32 0x41200000#32)))
          (maximumf
            (broadcastInDim S1000 ![] bcast_S_S1000 (id (constant (F := F) S_ .f32 0x00000000#32)))
            (mulf
              (broadcastInDim S1000 ![] bcast_S_S1000 (constant (F := F) S_ .f32 0x3F000000#32))
              (addf lv
                (Host.divf sums
                  (maximumf counts
                    (broadcastInDim S1000 ![] bcast_S_S1000 (constant (F := F) S_ .f32 0x3F800000#32))))))))
        (broadcastInDim S1000 ![] bcast_S_S1000 (id (constant (F := F) S_ .f32 0x00000000#32))))
      (constant (F := F) S_ .f32 0x00000000#32) reducesTo_S1000_S_d0 h_S_)
    (maximumf
      (sitofp (F := F) .f32
        (Host.reduce IntOp.addi
          (extui 32
            (cmpf .ogt counts (broadcastInDim S1000 ![] bcast_S_S1000 (constant (F := F) S_ .f32 0x00000000#32)))
            natLt_1_32)
          (constantI S_ 32 0#32) reducesTo_S1000_S_d0 h_S_))
      (constant (F := F) S_ .f32 0x3F800000#32))

/-- The reference's last value is the tail of its three class vectors. -/
theorem v89_eq_tail {F : FTy → Type} [FloatOps F] (x0 : (⟨S131072x512, .f32⟩ : BufTy).Contents (Elt F))
    (x4 x5 : (⟨S1000x512, .f32⟩ : BufTy).Contents (Elt F)) (x6 : (⟨S131072, .i32⟩ : BufTy).Contents (Elt F)) :
    val_main_v89 (F := F) x0 x4 x5 x6
      = tailR (val_main_v47 (F := F) x5) (val_main_v69 (F := F) x0 x4 x5 x6) (val_main_v73 (F := F) x6) := rfl

/-! ## Two constants -/

/-- The word 0x3F800000 is the real 1. -/
theorem ofBits_one_f32 : Ideal.ofBits .f32 0x3F800000#32 = 1 := by
  simp [Ideal.ofBits, Ideal.ieee, -EReal.coe_mul]; norm_num

/-- The word 0x38D1B717 (the real 13743895 · 2⁻³⁷, about 1e-4) is positive. -/
theorem ofBits_eps_pos : (0 : EReal) < Ideal.ofBits .f32 0x38D1B717#32 := by
  simp [Ideal.ofBits, Ideal.ieee, -EReal.coe_mul]

/-! ## A row gather read at an index

Operand [N, C], start indices [n, 1], result [n, C]: the operand's row axis is collapsed and named by the one
component of the index vector, its column axis is the result's offset axis. Result element (r, j) is the operand
at row idx[r, 0], read signed and clamped into [0, N − 1], and column j. -/

/-- Those dimension numbers. -/
abbrev rowDims (N C n : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- On the row axis the operand index is the clamped start index: no batching and no offset coordinate. -/
theorem rowDims_axis0 {N C n w : Nat}
    (wf : GatherDims.WF ⟨2, ![N, C]⟩ ⟨2, ![n, 1]⟩ ⟨2, ![n, C]⟩ [1] [0] [] [0] [] 1 ![1, C])
    (idx : IVec ⟨2, ![n, 1]⟩ w) (r : Fin n) (j : Fin C) :
    (rowDims N C n wf).start (ix2 r j) idx 0 + (rowDims N C n wf).batchCoord (ix2 r j) 0
        + (rowDims N C n wf).offCoord (ix2 r j) 0
      = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C n wf).startIndexMap from List.mem_singleton.mpr rfl)]
  have hsi : (rowDims N C n wf).siIdx (ix2 r j) ⟨List.idxOf (0 : Fin 2) (rowDims N C n wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the column axis the operand index is the result's column: the start is 0 there. -/
theorem rowDims_axis1 {N C n w : Nat}
    (wf : GatherDims.WF ⟨2, ![N, C]⟩ ⟨2, ![n, 1]⟩ ⟨2, ![n, C]⟩ [1] [0] [] [0] [] 1 ![1, C])
    (idx : IVec ⟨2, ![n, 1]⟩ w) (r : Fin n) (j : Fin C) :
    (rowDims N C n wf).start (ix2 r j) idx 1 + (rowDims N C n wf).batchCoord (ix2 r j) 1
        + (rowDims N C n wf).offCoord (ix2 r j) 1
      = j.val := by
  have h10 : (1 : Fin 2) ≠ 0 := by decide
  rw [GatherDims.batchCoord_eq_zero _ _ _ List.not_mem_nil]
  unfold GatherDims.start
  rw [dif_neg (show ¬ (1 : Fin 2) ∈ (rowDims N C n wf).startIndexMap from
    fun h => h10 (List.mem_singleton.mp h))]
  simp only [Nat.zero_add, Nat.add_zero]
  unfold GatherDims.offCoord
  rw [dif_pos (show (1 : Fin 2) ∈ (rowDims N C n wf).sKept from
    (GatherDims.mem_sKept _ _).mpr ⟨fun h => h10 (List.mem_singleton.mp h), List.not_mem_nil⟩)]
  rfl

/-- THE ROW GATHER READ AT (r, j): the operand at row idx[r, 0], read signed and clamped, and column j. -/
theorem gather_row_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (r : Fin n) (j : Fin C) :
    Host.gather (rowDims N C n wf) x idx (ix2 r j)
      = x (ix2 ⟨min (idx (ix2 r (0 : Fin 1))).toInt.toNat (N - 1), by omega⟩ j) := by
  unfold Host.gather
  congr 1
  funext a
  refine Fin.ext ?_
  match a with
  | ⟨0, _⟩ => exact rowDims_axis0 wf idx r j
  | ⟨1, _⟩ => exact rowDims_axis1 wf idx r j

/-- A start index that is a class c < 1000 reads row c of a [1000, 512] table: the clamp does not move it. -/
theorem row_of_label {α : Type}
    (wf : GatherDims.WF ⟨2, ![1000, 512]⟩ ⟨2, ![131072, 1]⟩ ⟨2, ![131072, 512]⟩ [1] [0] [] [0] [] 1 ![1, 512])
    (T : (⟨2, ![1000, 512]⟩ : Shape).Idx → α) (idxv : IVec ⟨2, ![131072, 1]⟩ 32)
    (r : Fin 131072) (k : Fin 512) (i : Fin 1000) (h : (idxv (ix2 r (0 : Fin 1))).toInt = (i.val : ℤ)) :
    Host.gather (rowDims 1000 512 131072 wf) T idxv (ix2 r k) = T (ix2 i k) := by
  refine (gather_row_apply (by decide) wf T idxv r k).trans (congrArg T ?_)
  have hi := i.isLt
  have hm : min (idxv (ix2 r (0 : Fin 1))).toInt.toNat (1000 - 1) = i.val := by
    rw [h, Int.toNat_natCast]; omega
  exact congrArg (fun a : Fin 1000 => ix2 a k) (Fin.ext hm)

/-! ## Labels -/

/-- A label that is not negative is its own wrap: "label < 0 ? label + 1000 : label" selects the label. -/
theorem wrap_of_nonneg (l : BitVec 32) (h : 0 ≤ l.toInt) :
    Scalar.select (IntOp.cmpi .slt l 0#32) (IntOp.addi l 1000#32) l = l := by
  have hs : l.slt 0#32 = false := by
    simp only [BitVec.slt, BitVec.toInt_zero, decide_eq_false_iff_not, not_lt]
    exact h
  have hc : IntOp.cmpi .slt l 0#32 = 0#1 := by
    unfold IntOp.cmpi
    show BitVec.ofBool (l.slt 0#32) = 0#1
    rw [hs]; rfl
  rw [hc, select_zero]

section AtIdeal

variable (x0 : (⟨S131072x512, .f32⟩ : BufTy).Contents (Elt Ideal))
  (x4 x5 : (⟨S1000x512, .f32⟩ : BufTy).Contents (Elt Ideal))
  (x6 : (⟨S131072, .i32⟩ : BufTy).Contents (Elt Ideal))

/-- The scatters' index column is the labels themselves (the sums' scatter). -/
theorem label_col68 (r : Fin 131072) : val_main_v68 (F := Ideal) x6 (ix2 r (0 : Fin 1)) = x6 (ix1 r) := by
  rw [val_main_v68_apply]
  exact congrArg x6 (funext fun a => Fin.ext (by match a with | ⟨0, _⟩ => rfl))

/-- The same for the counts' scatter. -/
theorem label_col72 (r : Fin 131072) : val_main_v72 (F := Ideal) x6 (ix2 r (0 : Fin 1)) = x6 (ix1 r) := by
  rw [val_main_v72_apply]
  exact congrArg x6 (funext fun a => Fin.ext (by match a with | ⟨0, _⟩ => rfl))

/-- The means' gather reads at the wrapped label, which for a label that is not negative is the label. -/
theorem wrapped53 (r : Fin 131072) (h : 0 ≤ (x6 (ix1 r)).toInt) :
    val_main_v53 (F := Ideal) x6 (ix2 r (0 : Fin 1)) = x6 (ix1 r) := by
  have hidx : idx_main_v53 (ix2 r (0 : Fin 1)) = ix1 r :=
    funext fun a => Fin.ext (by match a with | ⟨0, _⟩ => rfl)
  rw [val_main_v53_apply, hidx, val_main_v52_apply, val_main_v49_apply, val_main_v51_apply, val_main_v48_apply,
    val_main_c_14_apply, val_main_v50_apply, val_main_c_15_apply]
  exact wrap_of_nonneg _ h

/-- The same for the variances' gather. -/
theorem wrapped62 (r : Fin 131072) (h : 0 ≤ (x6 (ix1 r)).toInt) :
    val_main_v62 (F := Ideal) x6 (ix2 r (0 : Fin 1)) = x6 (ix1 r) := by
  have hidx : idx_main_v62 (ix2 r (0 : Fin 1)) = ix1 r :=
    funext fun a => Fin.ext (by match a with | ⟨0, _⟩ => rfl)
  rw [val_main_v62_apply, hidx, val_main_v61_apply, val_main_v58_apply, val_main_v60_apply, val_main_v57_apply,
    val_main_c_16_apply, val_main_v59_apply, val_main_c_17_apply]
  exact wrap_of_nonneg _ h

/-! ## The rows of class i -/

/-- For a row of class i the gathered mean row is row i of the means. -/
theorem mean_row (r : Fin 131072) (k : Fin 512) (i : Fin 1000) (hl : (x6 (ix1 r)).toInt = (i.val : ℤ)) :
    val_main_v54 (F := Ideal) x4 x6 (ix2 r k) = x4 (ix2 i k) := by
  have h54 : val_main_v54 (F := Ideal) x4 x6
      = Host.gather (rowDims 1000 512 131072 gather_S1000x512_S131072x1_S131072x512_1_0_n_n_0_1_1512_wf) x4
          (val_main_v53 (F := Ideal) x6) := rfl
  rw [h54]
  refine row_of_label _ x4 _ r k i ?_
  rw [wrapped53 x6 r (by rw [hl]; exact Int.natCast_nonneg _)]
  exact hl

/-- For a row of class i the gathered variance row is row i of the variances. -/
theorem var_row (r : Fin 131072) (k : Fin 512) (i : Fin 1000) (hl : (x6 (ix1 r)).toInt = (i.val : ℤ)) :
    val_main_v63 (F := Ideal) x5 x6 (ix2 r k) = val_main_v42 (F := Ideal) x5 (ix2 i k) := by
  have h63 : val_main_v63 (F := Ideal) x5 x6
      = Host.gather (rowDims 1000 512 131072 gather_S1000x512_S131072x1_S131072x512_1_0_n_n_0_1_1512_wf)
          (val_main_v42 (F := Ideal) x5) (val_main_v62 (F := Ideal) x6) := rfl
  rw [h63]
  refine row_of_label _ (val_main_v42 (F := Ideal) x5) _ r k i ?_
  rw [wrapped62 x6 r (by rw [hl]; exact Int.natCast_nonneg _)]
  exact hl

/-- One clipped term of a row of class i. -/
theorem clipped_elem (r : Fin 131072) (k : Fin 512) (i : Fin 1000) (hl : (x6 (ix1 r)).toInt = (i.val : ℤ)) :
    val_main_v65 (F := Ideal) x0 x4 x5 x6 (ix2 r k)
      = clip100 (Ideal.div ((x0 (ix2 r k) - x4 (ix2 i k)) * (x0 (ix2 r k) - x4 (ix2 i k)))
          (val_main_v42 (F := Ideal) x5 (ix2 i k))) := by
  rw [val_main_v65_apply, val_main_call2_v4_apply, val_main_call2_v3_apply, val_main_cst_19_apply,
    val_main_call2_v2_apply, val_main_call2_v1_apply, val_main_call2_v0_apply, val_main_cst_18_apply,
    val_main_v64_apply, val_main_v56_apply, val_main_v55_apply, mean_row x4 x6 r k i hl, var_row x5 x6 r k i hl]
  rfl

/-- The row sum of a row of class i is its clipped squared distance to class i's Gaussian. -/
theorem row_sum (r : Fin 131072) (i : Fin 1000) (hl : (x6 (ix1 r)).toInt = (i.val : ℤ)) :
    val_main_v66 (F := Ideal) x0 x4 x5 x6 (ix1 r)
      = rowDistDiv (fun j => x0 (ix2 r j)) (fun j => x4 (ix2 i j))
          (fun j => val_main_v42 (F := Ideal) x5 (ix2 i j)) := by
  rw [val_main_v66_apply, val_main_cst_20_apply, Ideal.ofBits_def, Ideal.ofBits_zero_f32, zero_add]
  unfold rowDistDiv
  refine Finset.sum_congr rfl fun k _ => ?_
  have hidx : idx_main_v66 (ix1 r) k = ix2 r k :=
    funext fun a => Fin.ext (by match a with | ⟨0, _⟩ => rfl | ⟨1, _⟩ => rfl)
  rw [hidx]
  exact clipped_elem x0 x4 x5 x6 r k i hl

/-! ## The three statements -/

/-- The per-class counts: the number of rows labelled i, as a sum of ones. -/
theorem ref_counts_apply (i : Fin 1000) :
    val_main_v73 (F := Ideal) x6 (ix1 i)
      = ∑ r ∈ Finset.univ.filter (fun r : Fin 131072 => (x6 (ix1 r)).toInt = (i.val : ℤ)), (1 : EReal) := by
  have h73 : val_main_v73 (F := Ideal) x6
      = Host.scatterAdd (F := Ideal) (φ := .f32)
          (Cert.LibScatterAddFlat.flatDims 1000 131072 scatter_S1000_S131072x1_S131072_n_0_0_1_wf)
          (val_main_v71 (F := Ideal)) (val_main_v72 (F := Ideal) x6) (val_main_v70 (F := Ideal)) := rfl
  rw [h73]
  refine (Cert.LibScatterAddFlat.scatterAdd_flat_apply (φ := .f32) _ _ _ _ i).trans ?_
  rw [val_main_v71_apply, val_main_cst_23_apply, Ideal.ofBits_def, Ideal.ofBits_zero_f32, zero_add]
  refine Finset.sum_congr (Finset.filter_congr fun r _ => by rw [label_col72 x6 r]) (fun r _ => ?_)
  rw [val_main_v70_apply, val_main_cst_22_apply, Ideal.ofBits_def, ofBits_one_f32]

/-- The per-class sums: over the rows labelled i, the clipped squared distance to class i's Gaussian. -/
theorem ref_sums_apply (i : Fin 1000) :
    val_main_v69 (F := Ideal) x0 x4 x5 x6 (ix1 i)
      = ∑ r ∈ Finset.univ.filter (fun r : Fin 131072 => (x6 (ix1 r)).toInt = (i.val : ℤ)),
          rowDistDiv (fun j => x0 (ix2 r j)) (fun j => x4 (ix2 i j))
            (fun j => val_main_v42 (F := Ideal) x5 (ix2 i j)) := by
  have h69 : val_main_v69 (F := Ideal) x0 x4 x5 x6
      = Host.scatterAdd (F := Ideal) (φ := .f32)
          (Cert.LibScatterAddFlat.flatDims 1000 131072 scatter_S1000_S131072x1_S131072_n_0_0_1_wf)
          (val_main_v67 (F := Ideal)) (val_main_v68 (F := Ideal) x6) (val_main_v66 (F := Ideal) x0 x4 x5 x6) := rfl
  rw [h69]
  refine (Cert.LibScatterAddFlat.scatterAdd_flat_apply (φ := .f32) _ _ _ _ i).trans ?_
  rw [val_main_v67_apply, val_main_cst_21_apply, Ideal.ofBits_def, Ideal.ofBits_zero_f32, zero_add]
  refine Finset.sum_congr (Finset.filter_congr fun r _ => by rw [label_col68 x6 r]) (fun r hr => ?_)
  exact row_sum x0 x4 x5 x6 r i (Finset.mem_filter.mp hr).2

/-! ## The variance is nowhere zero -/

/-- log(1 + e^y) is not negative, at every extended real y (e^{−∞} = 0, e^{+∞} = +∞). -/
theorem log1p_exp_nonneg (y : EReal) : 0 ≤ Ideal.log1p (Ideal.exp y) := by
  induction y using EReal.rec with
  | bot =>
    rw [Ideal.log1p, Ideal.exp_bot, add_zero, ← EReal.coe_one, Ideal.log_coe, if_neg (by norm_num), Real.log_one,
      EReal.coe_zero]
  | top =>
    rw [Ideal.log1p, Ideal.exp_top, EReal.add_top_of_ne_bot (by exact_mod_cast EReal.coe_ne_bot (1 : ℝ)), Ideal.log_top]
    exact le_top
  | coe r =>
    have h1 : (1 : EReal) + ((Real.exp r : ℝ) : EReal) = ((1 + Real.exp r : ℝ) : EReal) := by
      rw [EReal.coe_add, EReal.coe_one]
    have hpos : (0 : ℝ) < 1 + Real.exp r := by positivity
    rw [Ideal.log1p, Ideal.exp_coe, h1, Ideal.log_coe, if_neg (not_le.mpr hpos)]
    have : (0 : ℝ) ≤ Real.log (1 + Real.exp r) := Real.log_nonneg (by linarith [Real.exp_pos r])
    exact_mod_cast this

/-- No extended real differs from itself. -/
theorem une_self (a : EReal) : Ideal.cmp .une a a = 0#1 := by
  simp [Ideal.cmp]

/-- A nonnegative extended real plus a positive one is not zero. -/
theorem add_pos_ne_zero (a c : EReal) (ha : 0 ≤ a) (hc : 0 < c) : a + c ≠ 0 :=
  ne_of_gt (lt_of_lt_of_le hc (le_add_of_nonneg_left ha))

/-- The variance softplus(x₅) + 1e-4 is never zero: max(x, 0) ≥ 0, log(1 + e^{−|x|}) ≥ 0, and 1e-4 > 0. -/
theorem ref_var_ne_zero (i : Fin 1000) (j : Fin 512) : val_main_v42 (F := Ideal) x5 (ix2 i j) ≠ 0 := by
  rw [val_main_v42_apply, val_main_v41_apply, val_main_cst_9_apply, val_main_v40_apply, val_main_call0_v4_apply,
    Ideal.cmpf_def, une_self, select_zero, val_main_call0_v11_apply, val_main_call0_v1_apply,
    val_main_call0_v0_apply, val_main_call0_cst_apply, val_main_call0_v10_apply, val_main_call0_v9_apply]
  simp only [Ideal.addf_def, Ideal.maximumf_def, Ideal.hostUnary_log1p_def, Ideal.hostUnary_exp_def, Ideal.ofBits_def,
    Ideal.ofBits_zero_f32]
  exact add_pos_ne_zero _ _ (add_nonneg (le_max_right _ _) (log1p_exp_nonneg _)) ofBits_eps_pos

end AtIdeal

end Cert.ReferenceIdeal.RefClass

end
-- ==== Proof.Bridge.lean ====
/-
  The kernel's run read as values, and the two programs' results joined.

  Both programs end with the same scalar tail of three [1000] vectors: the log-variance term (the same host
  operations of the variance table on both sides), the per-class sums and the per-class counts. The kernel's
  sums at class c are rows 0 and 8 of its [16, 1024] result added, that is the sum over all 128 tiles of the
  indicator-weighted clipped distances to the table row each label gathers; the reference's are the sum over the
  rows labelled c of the clipped distances to class c's Gaussian. A row labelled c < 1000 gathers table row c,
  whose left half is the class's means and whose right half is the reciprocals of its variances, which are not
  zero; so the two distances agree on the class, and the two sums are one. The counts are the same statement with
  every distance replaced by 1.
-/
import proofs.«414106_j34806414967387_2_alg».proof.Proof.KernelAcc
import proofs.«414106_j34806414967387_2_alg».proof.Proof.KernelHostPre
import proofs.«414106_j34806414967387_2_alg».proof.Proof.KernelHostTail
import proofs.«414106_j34806414967387_2_alg».proof.Proof.RefClass
import proofs.«414106_j34806414967387_2_alg».proof.Proof.ClassMath

noncomputable section

open scoped BigOperators

open Idealize.ShloMosaic Idealize.ShloMosaic.TcCoe Idealize.SL.Sem
open Idealize.ShloMosaic.Pipeline (Dat)

namespace Cert.KernelIdeal.Bridge

open Cert.KernelIdeal Cert.KernelIdeal.Gen Cert.KernelIdeal.Acc Cert.KernelIdeal.HostPre Cert.KernelIdeal.HostTail
open Cert.ClassSpec Cert.ClassMath Idealize.ShloMosaic.ValueIdx

/-! ## The kernel's run, read -/

section Run

variable {F : FTy → Type} [FloatOps F]
variable (m : (ℓ : Loc nD τ sig) → Buf (Elt F) ℓ) (ρ : Dev nD → PrngReg)

/-- Every weakly fair execution of the kernel program ends with the compensated prototypes at their host term, the
    loss at the tail of (log-variance term, row-summed sums array, row-summed counts array), the arguments unchanged. -/
theorem run : θ_run defs (onTc (τ := τ) (main (F := F))) ⟨m, fun _ => 0, ρ⟩ fun r => ∀ c : Dev nD,
      r.2.mem ((c.tc : Thread nD τ).loc main_v39) = compK (m ((c : Thread nD τ).loc main_arg1)) (m ((c : Thread nD τ).loc main_arg2)) (m ((c : Thread nD τ).loc main_arg3)) (m ((c : Thread nD τ).loc main_arg7))
      ∧ r.2.mem ((c.tc : Thread nD τ).loc main_v82) = tailK (logVarK (m ((c : Thread nD τ).loc main_arg5))) (rowsSum ((dats m 0 c).arrAt 3 cfg0.N)) (rowsSum ((dats m 0 c).arrAt 4 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v39 (Pipeline.mem_restRefs_of main_v39 (by decide) (by decide))).trans ((tail_comp m c).trans (V_comp m c)),
      ((h c).2 main_v82 (Pipeline.mem_restRefs_of main_v82 (by decide) (by decide))).trans ((tail_loss m c).trans (by rw [V_logVar])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 1).trans (((dats m 0 c).arrAt_in 1 rfl _).trans ((A_eq m c 1).trans (V_main_arg6 m c))),
      ((h c).2 main_arg7 (Pipeline.mem_restRefs_of main_arg7 (by decide) (by decide))).trans (W_main_arg7 m (dats m) c)⟩)
    (run_main m ρ)

end Run

/-! ## The same host terms on both sides -/

section SameTerms

variable {F : FTy → Type} [FloatOps F]

open Cert.ReferenceIdeal.Read (val_main_v39 val_main_v42 val_main_v47)
open Cert.ReferenceIdeal.RefClass (tailR)

/-- The variance table softplus(x) + 1e-4 is one host term in both programs. -/
theorem varK_eq (x5 : Vec F S1000x512 .f32) : varK x5 = val_main_v42 (F := F) x5 := rfl
/-- So is the log-variance term. -/
theorem logVarK_eq (x5 : Vec F S1000x512 .f32) : logVarK x5 = val_main_v47 (F := F) x5 := rfl
/-- So are the compensated prototypes. -/
theorem compK_eq (x1 x2 : Vec F S1000x512 .f32) (x3 : Vec F S1000 .f32) (x7 : Vec F S1000 .i32) :
    compK x1 x2 x3 x7 = val_main_v39 (F := F) x1 x2 x3 x7 := rfl
/-- And the scalar tail of (log-variance term, sums, counts). -/
theorem tailK_eq (lv sums counts : FVec F S1000 .f32) : tailK lv sums counts = tailR (F := F) lv sums counts := rfl

end SameTerms

/-! ## The per-class sums and counts are the same vectors -/

section Join

open Cert.ReferenceIdeal.Read (val_main_v42 val_main_v69 val_main_v73)
open Cert.ReferenceIdeal.RefClass (ref_sums_apply ref_counts_apply ref_var_ne_zero)

variable (m : (ℓ : Loc nD τ sig) → Buf (Elt Ideal) ℓ)

/-- The argument arrays the two reductions read, by their literal types. -/
abbrev featA (c : Dev nD) : Vec Ideal S131072x512 .f32 := m ((c : Thread nD τ).loc main_arg0)
abbrev meanA (c : Dev nD) : Vec Ideal S1000x512 .f32 := m ((c : Thread nD τ).loc main_arg4)
abbrev gvarA (c : Dev nD) : Vec Ideal S1000x512 .f32 := m ((c : Thread nD τ).loc main_arg5)
abbrev lablA (c : Dev nD) : Vec Ideal S131072 .i32 := m ((c : Thread nD τ).loc main_arg6)

/-- Table row c < 1000, left half: class c's means. -/
theorem table_lo (c : Dev nD) (a : Fin 1000) (j : Fin 512) :
    V m c main_v53 (ix2 (padRow a) (colLo j)) = meanA m c (ix2 a j) :=
  (congrFun (V_table m c) _).trans (tableK_lo (meanA m c) (gvarA m c) a j)

/-- Table row c < 1000, right half: the reciprocals of class c's variances. -/
theorem table_hi (c : Dev nD) (a : Fin 1000) (j : Fin 512) :
    V m c main_v53 (ix2 (padRow a) (colHi j)) = Ideal.div 1 (val_main_v42 (F := Ideal) (gvarA m c) (ix2 a j)) := by
  refine (congrFun (V_table m c) _).trans ?_
  refine (tableK_hi (meanA m c) (gvarA m c) a j).trans ?_
  rw [ofBits_one_f32, varK_eq]

/-- The kernel's per-class sums (rows 0 and 8 of its result added, cut to 1000 classes) are the reference's. -/
theorem sums_eq (c : Dev nD) :
    rowsSum (F := Ideal) (sumsArr m c) = val_main_v69 (F := Ideal) (featA m c) (meanA m c) (gvarA m c) (lablA m c) := by
  funext i
  obtain ⟨a, rfl⟩ : ∃ a : Fin 1000, i = ix1 a := ⟨i 0, eq_ix1 i⟩
  rw [rowsSum_apply, sums_rows, ref_sums_apply]
  simp only [tileSumN_eq]
  exact class_sum_eq (fun r => lablA m c (ix1 r)) a.val
    (fun r => rowDistMul (fun j => featA m c (ix2 r j))
      (fun j => ∑ c' : Fin 1024, hot (lablA m c (ix1 r)) c'.val * V m c main_v53 (ix2 c' (colLo j)))
      (fun j => ∑ c' : Fin 1024, hot (lablA m c (ix1 r)) c'.val * V m c main_v53 (ix2 c' (colHi j))))
    (fun r => rowDistDiv (fun j => featA m c (ix2 r j)) (fun j => meanA m c (ix2 a j))
      (fun j => val_main_v42 (F := Ideal) (gvarA m c) (ix2 a j)))
    (fun r hr => rowDist_bridge (lablA m c (ix1 r)) a hr (fun j => featA m c (ix2 r j)) (fun j => meanA m c (ix2 a j))
      (fun j => val_main_v42 (F := Ideal) (gvarA m c) (ix2 a j)) (fun c' b => V m c main_v53 (ix2 c' b))
      (fun j => table_lo m c a j) (fun j => table_hi m c a j) (fun j => ref_var_ne_zero (gvarA m c) a j))

/-- The kernel's per-class counts are the reference's. -/
theorem counts_eq (c : Dev nD) :
    rowsSum (F := Ideal) (cntsArr m c) = val_main_v73 (F := Ideal) (lablA m c) := by
  funext i
  obtain ⟨a, rfl⟩ : ∃ a : Fin 1000, i = ix1 a := ⟨i 0, eq_ix1 i⟩
  rw [rowsSum_apply, counts_rows, ref_counts_apply]
  simp only [tileCntN_eq]
  exact class_count_eq (fun r => lablA m c (ix1 r)) a.val

end Join

end Cert.KernelIdeal.Bridge

end
-- ==== Proof.lean ====
/-
  The certificate's five claims.

  Frames: the kernel program's two instances run, end and keep their arguments by the generated class-R frame; the
  reference is a host program and its frame is its run with the results dropped. The idealization rewrote nothing.
  The value claim: the compensated prototypes are the same host operations of the same arguments in both programs;
  the loss is the same scalar tail of the log-variance term, the per-class sums and the per-class counts, and the
  kernel's sums and counts (a one-hot gather and a one-hot reduction, accumulated tile by tile over a 2 × 64 grid
  and added across the two halves) are the reference's (a gather by label and a scatter-add by label).
-/
import proofs.«414106_j34806414967387_2_alg».proof.Defs
import proofs.«414106_j34806414967387_2_alg».proof.Proof.Gen.Kernel
import proofs.«414106_j34806414967387_2_alg».proof.Proof.Gen.Kernel.Frame
import proofs.«414106_j34806414967387_2_alg».proof.Proof.Gen.KernelIdeal
import proofs.«414106_j34806414967387_2_alg».proof.Proof.Gen.KernelIdeal.Frame
import proofs.«414106_j34806414967387_2_alg».proof.Proof.Gen.ReferenceIdeal
import proofs.«414106_j34806414967387_2_alg».proof.Proof.Gen.Pre_finite_inputs
import proofs.«414106_j34806414967387_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.Bridge Cert.KernelIdeal.HostPre Cert.KernelIdeal.HostTail Cert.KernelIdeal.Acc in
/-- Both programs end at the same compensated prototypes and the same loss. -/
theorem algebraic : Cert.algebraic_KernelIdeal_ReferenceIdeal := by
  intro m ρ m' ρ' _ hagree
  refine ⟨fun c => compK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)),
    fun c => tailK (logVarK (m ((c.tc : Thread Cert.KernelIdeal.nD Cert.KernelIdeal.τ).loc Cert.KernelIdeal.main_arg5))) (rowsSum (sumsArr m c)) (rowsSum (cntsArr m c)),
    Cert.KernelIdeal.Bridge.run (F := Ideal) m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [a1, a2, a3, a7]
    exact (compK_eq _ _ _ _).symm
  · rw [Cert.ReferenceIdeal.Read.val_main_v89_eq, Cert.ReferenceIdeal.RefClass.v89_eq_tail, a0, a4, a5, a6]
    rw [← logVarK_eq, ← tailK_eq]
    exact congrArg₂ (tailK _) (sums_eq m c).symm (counts_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
